-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_cst_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256x1 : Shape := ⟨4, ![64, 256, 256, 1]⟩
abbrev S64x256x128 : Shape := ⟨3, ![64, 256, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S64x256x256x1 : S_.BroadcastsInDim S64x256x256x1 (![] : Fin 0 → Fin S64x256x256x1.rank)
  reducesTo_S64x256x256x1_S_d0_1_2_3 : S64x256x256x1.ReducesTo [0, 1, 2, 3] S_
  h_S_ : 0 < S_.numel
  bcast_S_S64x256x128 : S_.BroadcastsInDim S64x256x128 (![] : Fin 0 → Fin S64x256x128.rank)
  reducesTo_S64x256x128_S_d0_1_2 : S64x256x128.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S256 .f32) (main_arg8 : FVec F S256x128 .f32) (main_arg9 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S256x128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x256x256x1 .f32) (main_arg1 : FVec F S64x256x128 .f32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x128 .f32) (main_arg9 : FVec F S128 .f32) : IVec S_ 1 :=
  let main_v0 : FVec F S64x256x256x1 .f32 := Host.absf main_arg0
  let main_cst : FVec F S_ .f32 := constant S_ .f32 0x7F800000#32
  let main_v1 : FVec F S64x256x256x1 .f32 := broadcastInDim S64x256x256x1 ![] bcast_S_S64x256x256x1 main_cst
  let main_v2 : IVec S64x256x256x1 1 := cmpf .olt main_v0 main_v1
  let main_c : IVec S_ 1 := constantI S_ 1 1#1
  let main_v3 : IVec S_ 1 := (fun x v => Host.reduce IntOp.andi x v reducesTo_S64x256x256x1_S_d0_1_2_3 h_S_) main_v2 main_c
  let main_v4 : FVec F S64x256x128 .f32 := Host.absf main_arg1
  let main_cst_0 : FVec F S_ .f32 := constant S_ .f32 0x7F800000#32
  let main_v5 : FVec F S64x256x128 .f32 := broadcastInDim S64x256x128 ![] bcast_S_S64x256x128 main_cst_0
  let main_v6 : IVec S64x256x128 1 := cmpf .olt main_v4 main_v5
  let main_c_1 : IVec S_ 1 := constantI S_ 1 1#1
  let main_v7 : IVec S_ 1 := (fun x v => Host.reduce IntOp.andi x v reducesTo_S64x256x128_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S64x256x256x1 : Shape := ⟨4, ![64, 256, 256, 1]⟩
abbrev S64x256x128 : Shape := ⟨3, ![64, 256, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S64x512x128 : Shape := ⟨3, ![64, 512, 128]⟩
abbrev S1x256 : Shape := ⟨2, ![1, 256]⟩
abbrev S1x128 : Shape := ⟨2, ![1, 128]⟩
abbrev S64x128 : Shape := ⟨2, ![64, 128]⟩
abbrev S16x512x128 : Shape := ⟨3, ![16, 512, 128]⟩
abbrev S16x256x128 : Shape := ⟨3, ![16, 256, 128]⟩
abbrev S16x128 : Shape := ⟨2, ![16, 128]⟩
abbrev S16x256x256 : Shape := ⟨3, ![16, 256, 256]⟩
abbrev S4096x128 : Shape := ⟨2, ![4096, 128]⟩
abbrev S4096x256 : Shape := ⟨2, ![4096, 256]⟩
abbrev S16x256 : Shape := ⟨2, ![16, 256]⟩
abbrev S_ : Shape := ⟨0, ![]⟩

abbrev nBuf : Space → Nat
  | .hbm => 17
  | .vmem => 14
  | .smem => 0
  | _ => 0

abbrev bufTy : (tb : Table) → Fin (tcTables nBuf tb) → BufTy
  | .hbm, ⟨0, _⟩ => ⟨S64x256x256x1, .f32⟩
  | .hbm, ⟨1, _⟩ => ⟨S64x256x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S64x512x128, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x128, .f32⟩
  | .hbm, ⟨15, _⟩ => ⟨S64x128, .f32⟩
  | .hbm, ⟨16, _⟩ => ⟨S_, .f32⟩
  | .local _ .vmem, ⟨0, _⟩ => ⟨S16x512x128, .f32⟩
  | .local _ .vmem, ⟨1, _⟩ => ⟨S16x512x128, .f32⟩
  | .local _ .vmem, ⟨2, _⟩ => ⟨S16x256x128, .f32⟩
  | .local _ .vmem, ⟨3, _⟩ => ⟨S16x256x128, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S16x128, .f32⟩
  | .local _ .vmem, ⟨13, _⟩ => ⟨S16x128, .f32⟩
  | _, _ => ⟨S64x256x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S64x256x256x1_S64x512x128 : S64x256x256x1.ShapeCasts S64x512x128
  shapeCasts_S256_S1x256 : S256.ShapeCasts S1x256
  shapeCasts_S128_S1x128 : S128.ShapeCasts S1x128
  inb_S16x512x128_S16x512x128_0_0_0 : ∀ a, (![0, 0, 0] : Fin 3 → Nat) a + S16x512x128.size a ≤ S16x512x128.size a
  h_S16x512x128 : 0 < S16x512x128.numel
  shapeCasts_S16x512x128_S16x512x128 : S16x512x128.ShapeCasts S16x512x128
  shapeCasts_S16x512x128_S16x256x256 : S16x512x128.ShapeCasts S16x256x256
  inb_S16x256x128_S16x256x128_0_0_0 : ∀ a, (![0, 0, 0] : Fin 3 → Nat) a + S16x256x128.size a ≤ S16x256x128.size a
  h_S16x256x128 : 0 < S16x256x128.numel
  shapeCasts_S16x256x128_S4096x128 : S16x256x128.ShapeCasts S4096x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S4096x256_S16x256x256 : S4096x256.ShapeCasts S16x256x256
  shapeCasts_S16x256x256_S4096x256 : S16x256x256.ShapeCasts S4096x256
  inb_S256x256_S256x256_0_0 : ∀ a, (![0, 0] : Fin 2 → Nat) a + S256x256.size a ≤ S256x256.size a
  h_S256x256 : 0 < S256x256.numel
  reduces_S16x256x256_S16x256 : S16x256x256.Reduces [1] S16x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16x128 : S1x128.Broadcasts S16x128
  inb_S16x128_S16x128_0_0 : ∀ a, (![0, 0] : Fin 2 → Nat) a + S16x128.size a ≤ S16x128.size a
  h_S16x128 : 0 < S16x128.numel
  dot_S16x256x256_S16x256x128_S16x256x128_2_1_1_2_0_0_wf : DotDims.WF S16x256x256 S16x256x128 S16x256x128 [2] [1] [1] [2] [0] [0]
  dot_S4096x128_S128x256_S4096x256_1_0_0_1_n_n_wf : DotDims.WF S4096x128 S128x256 S4096x256 [1] [0] [0] [1] [] []
  dot_S16x256x256_S16x256x256_S16x256x256_2_1_1_2_0_0_wf : DotDims.WF S16x256x256 S16x256x256 S16x256x256 [2] [1] [1] [2] [0] [0]
  dot_S4096x256_S256x256_S4096x256_1_0_0_1_n_n_wf : DotDims.WF S4096x256 S256x256 S4096x256 [1] [0] [0] [1] [] []
  dot_S16x256_S256x128_S16x128_1_0_0_1_n_n_wf : DotDims.WF S16x256 S256x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x128.size a ≤ S64x512x128.size a
  hwx0_0 : ∀ i : grid0.Coords, EltTy.bits .f32 = 32 ∨ (Rect.block (s := S64x512x128) S16x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x128.size a ≤ S64x256x128.size a
  hwx0_1 : ∀ i : grid0.Coords, EltTy.bits .f32 = 32 ∨ (Rect.block (s := S64x256x128) S16x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x128.size a ≤ S64x128.size a
  hwx0_10 : ∀ i : grid0.Coords, EltTy.bits .f32 = 32 ∨ (Rect.block (s := S64x128) S16x128.size (cc0_transform_10 i) (hinb0_10 i)).WholeWords (EltTy.packing .f32)

variable [Facts₀]

def dot_S16x256x256_S16x256x128_S16x256x128_2_1_1_2_0_0 : DotDims S16x256x256 S16x256x128 S16x256x128 where
  lhsContracting := [2]
  rhsContracting := [1]
  lhsNonContracting := [1]
  rhsNonContracting := [2]
  lhsBatch := [0]
  rhsBatch := [0]
  wf := dot_S16x256x256_S16x256x128_S16x256x128_2_1_1_2_0_0_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S16x256x256_S16x256x256_S16x256x256_2_1_1_2_0_0 : DotDims S16x256x256 S16x256x256 S16x256x256 where
  lhsContracting := [2]
  rhsContracting := [1]
  lhsNonContracting := [1]
  rhsNonContracting := [2]
  lhsBatch := [0]
  rhsBatch := [0]
  wf := dot_S16x256x256_S16x256x256_S16x256x256_2_1_1_2_0_0_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf

abbrev win0_0 : Pipeline.Window sig grid0 :=
  Pipeline.Window.ofSpec (Memref.whole main_v0) S16x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S16x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x256x256x1 : Shape := ⟨4, ![64, 256, 256, 1]⟩
abbrev S64x256x128 : Shape := ⟨3, ![64, 256, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S64x256x256 : Shape := ⟨3, ![64, 256, 256]⟩
abbrev S_ : Shape := ⟨0, ![]⟩
abbrev S1x1x256 : Shape := ⟨3, ![1, 1, 256]⟩
abbrev S64x256 : Shape := ⟨2, ![64, 256]⟩
abbrev S64x128 : Shape := ⟨2, ![64, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S64x256x256x1, .f32⟩
  | .hbm, ⟨1, _⟩ => ⟨S64x256x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S64x256x256, .f32⟩
  | .hbm, ⟨11, _⟩ => ⟨S64x256x128, .f32⟩
  | .hbm, ⟨12, _⟩ => ⟨S_, .f32⟩
  | .hbm, ⟨13, _⟩ => ⟨S64x256x128, .f32⟩
  | .hbm, ⟨14, _⟩ => ⟨S64x256x128, .f32⟩
  | .hbm, ⟨15, _⟩ => ⟨S64x256x128, .f32⟩
  | .hbm, ⟨16, _⟩ => ⟨S64x256x256, .f32⟩
  | .hbm, ⟨17, _⟩ => ⟨S1x1x256, .f32⟩
  | .hbm, ⟨18, _⟩ => ⟨S64x256x256, .f32⟩
  | .hbm, ⟨19, _⟩ => ⟨S64x256x256, .f32⟩
  | .hbm, ⟨20, _⟩ => ⟨S_, .f32⟩
  | .hbm, ⟨21, _⟩ => ⟨S64x256x256, .f32⟩
  | .hbm, ⟨22, _⟩ => ⟨S64x256x256, .f32⟩
  | .hbm, ⟨23, _⟩ => ⟨S64x256x256, .f32⟩
  | .hbm, ⟨24, _⟩ => ⟨S_, .f32⟩
  | .hbm, ⟨25, _⟩ => ⟨S64x256x256, .f32⟩
  | .hbm, ⟨26, _⟩ => ⟨S64x256x256, .f32⟩
  | .hbm, ⟨27, _⟩ => ⟨S64x256x256, .f32⟩
  | .hbm, ⟨28, _⟩ => ⟨S64x256x256, .f32⟩
  | .hbm, ⟨29, _⟩ => ⟨S1x1x256, .f32⟩
  | .hbm, ⟨30, _⟩ => ⟨S64x256x256, .f32⟩
  | .hbm, ⟨31, _⟩ => ⟨S64x256x256, .f32⟩
  | .hbm, ⟨32, _⟩ => ⟨S_, .f32⟩
  | .hbm, ⟨33, _⟩ => ⟨S64x256x256, .f32⟩
  | .hbm, ⟨34, _⟩ => ⟨S64x256x256, .f32⟩
  | .hbm, ⟨35, _⟩ => ⟨S64x256x256, .f32⟩
  | .hbm, ⟨36, _⟩ => ⟨S_, .f32⟩
  | .hbm, ⟨37, _⟩ => ⟨S64x256x256, .f32⟩
  | .hbm, ⟨38, _⟩ => ⟨S64x256x256, .f32⟩
  | .hbm, ⟨39, _⟩ => ⟨S64x256x256, .f32⟩
  | .hbm, ⟨40, _⟩ => ⟨S64x256x256, .f32⟩
  | .hbm, ⟨41, _⟩ => ⟨S1x1x256, .f32⟩
  | .hbm, ⟨42, _⟩ => ⟨S64x256x256, .f32⟩
  | .hbm, ⟨43, _⟩ => ⟨S64x256x256, .f32⟩
  | .hbm, ⟨44, _⟩ => ⟨S_, .f32⟩
  | .hbm, ⟨45, _⟩ => ⟨S64x256x256, .f32⟩
  | .hbm, ⟨46, _⟩ => ⟨S64x256x256, .f32⟩
  | .hbm, ⟨47, _⟩ => ⟨S_, .f32⟩
  | .hbm, ⟨48, _⟩ => ⟨S64x256, .f32⟩
  | .hbm, ⟨49, _⟩ => ⟨S64x128, .f32⟩
  | .hbm, ⟨50, _⟩ => ⟨S1x128, .f32⟩
  | .hbm, ⟨51, _⟩ => ⟨S64x128, .f32⟩
  | .hbm, ⟨52, _⟩ => ⟨S64x128, .f32⟩
  | .hbm, ⟨53, _⟩ => ⟨S_, .f32⟩
  | _, _ => ⟨S64x256x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call1_cst : Ref sig .tc := ⟨.hbm, 32, rfl⟩
abbrev main_call1_v0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call2_cst : Ref sig .tc := ⟨.hbm, 44, rfl⟩
abbrev main_call2_v0 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩

abbrev nD : Nat := 1
abbrev τ : Topo := Topo.v7x

variable {F : FTy → Type} [FloatOps F]

class Facts₀ : Prop where
  shapeCasts_S64x256x256x1_S64x256x256 : S64x256x256x1.ShapeCasts S64x256x256
  bcast_S_S64x256x128 : S_.BroadcastsInDim S64x256x128 (![] : Fin 0 → Fin S64x256x128.rank)
  bcast_S256_S1x1x256_2 : S256.BroadcastsInDim S1x1x256 (![2] : Fin 1 → Fin S1x1x256.rank)
  bcast_S1x1x256_S64x256x256_0_1_2 : S1x1x256.BroadcastsInDim S64x256x256 (![0, 1, 2] : Fin 3 → Fin S64x256x256.rank)
  bcast_S_S64x256x256 : S_.BroadcastsInDim S64x256x256 (![] : Fin 0 → Fin S64x256x256.rank)
  reducesTo_S64x256x256_S64x256_d1 : S64x256x256.ReducesTo [1] S64x256
  h_S_ : 0 < S_.numel
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  dot_S64x256x256_S64x256x128_S64x256x128_2_1_1_2_0_0_wf : DotDims.WF S64x256x256 S64x256x128 S64x256x128 [2] [1] [1] [2] [0] [0]
  dot_S64x256x128_S128x256_S64x256x256_2_0_01_1_n_n_wf : DotDims.WF S64x256x128 S128x256 S64x256x256 [2] [0] [0, 1] [1] [] []
  dot_S64x256x256_S64x256x256_S64x256x256_2_1_1_2_0_0_wf : DotDims.WF S64x256x256 S64x256x256 S64x256x256 [2] [1] [1] [2] [0] [0]
  dot_S64x256x256_S256x256_S64x256x256_2_0_01_1_n_n_wf : DotDims.WF S64x256x256 S256x256 S64x256x256 [2] [0] [0, 1] [1] [] []
  dot_S64x256_S256x128_S64x128_1_0_0_1_n_n_wf : DotDims.WF S64x256 S256x128 S64x128 [1] [0] [0] [1] [] []

variable [Facts₀]

def dot_S64x256x256_S64x256x128_S64x256x128_2_1_1_2_0_0 : DotDims S64x256x256 S64x256x128 S64x256x128 where
  lhsContracting := [2]
  rhsContracting := [1]
  lhsNonContracting := [1]
  rhsNonContracting := [2]
  lhsBatch := [0]
  rhsBatch := [0]
  wf := dot_S64x256x256_S64x256x128_S64x256x128_2_1_1_2_0_0_wf
def dot_S64x256x128_S128x256_S64x256x256_2_0_01_1_n_n : DotDims S64x256x128 S128x256 S64x256x256 where
  lhsContracting := [2]
  rhsContracting := [0]
  lhsNonContracting := [0, 1]
  rhsNonContracting := [1]
  lhsBatch := []
  rhsBatch := []
  wf := dot_S64x256x128_S128x256_S64x256x256_2_0_01_1_n_n_wf
def dot_S64x256x256_S64x256x256_S64x256x256_2_1_1_2_0_0 : DotDims S64x256x256 S64x256x256 S64x256x256 where
  lhsContracting := [2]
  rhsContracting := [1]
  lhsNonContracting := [1]
  rhsNonContracting := [2]
  lhsBatch := [0]
  rhsBatch := [0]
  wf := dot_S64x256x256_S64x256x256_S64x256x256_2_1_1_2_0_0_wf
def dot_S64x256x256_S256x256_S64x256x256_2_0_01_1_n_n : DotDims S64x256x256 S256x256 S64x256x256 where
  lhsContracting := [2]
  rhsContracting := [0]
  lhsNonContracting := [0, 1]
  rhsNonContracting := [1]
  lhsBatch := []
  rhsBatch := []
  wf := dot_S64x256x256_S256x256_S64x256x256_2_0_01_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

class Facts : Prop extends Facts₀ where

variable [Facts]
-- ==== Proof.Spec.lean ====
/-
  The mathematics both programs compute, for ONE graph, over the extended reals.

  A graph has 256 nodes; `A i j` is the weight of the edge from node `j` into node `i` and `h j d` is feature `d` of
  node `j`. A layer first AGGREGATES — every node takes the adjacency-weighted sum of all nodes' features and adds its
  own — and then UPDATES: an affine map of the feature axis followed by rectification (the maximum with zero). Three
  layers are applied; the node axis is then summed away (global sum pooling) and one last affine map gives the graph's
  128 outputs. Nothing couples two graphs, so the whole batch is this function applied graph by graph.

  Sums over the extended reals are sums in a commutative monoid: they may be regrouped and reordered freely, which is
  all a different tiling or a different order of a contraction ever does. No law used here needs finiteness.
-/
import Idealize.ShloMosaic.PureOps.Ideal
import Idealize.ShloMosaic.Lib.ValueIdx

noncomputable section

namespace Cert.GinSpec

/-- Neighbourhood aggregation: node `i`'s feature `d` becomes the sum over every node `j` of `A i j` times `j`'s
    feature `d`, plus node `i`'s own feature `d`. -/
def aggregate {D : Nat} (A : Fin 256 → Fin 256 → EReal) (h : Fin 256 → Fin D → EReal) (i : Fin 256) (d : Fin D) : EReal :=
  (∑ j : Fin 256, A i j * h j d) + h i d

/-- The update: the row `g n` times the matrix `W`, plus the bias, rectified. -/
def update {D : Nat} (W : Fin D → Fin 256 → EReal) (b : Fin 256 → EReal) (g : Fin 256 → Fin D → EReal)
    (n : Fin 256) (f : Fin 256) : EReal :=
  max ((∑ d : Fin D, g n d * W d f) + b f) 0

/-- One layer: aggregate, then update. -/
def layer {D : Nat} (A : Fin 256 → Fin 256 → EReal) (W : Fin D → Fin 256 → EReal) (b : Fin 256 → EReal)
    (h : Fin 256 → Fin D → EReal) : Fin 256 → Fin 256 → EReal :=
  update W b (aggregate A h)

/-- Pooling and projection: feature `f` summed over all nodes, that row times `Wout`, plus the bias. -/
def readout (h : Fin 256 → Fin 256 → EReal) (Wout : Fin 256 → Fin 128 → EReal) (bout : Fin 128 → EReal) (o : Fin 128) : EReal :=
  (∑ f : Fin 256, (∑ n : Fin 256, h n f) * Wout f o) + bout o

/-- One graph's 128 outputs: three layers, then the readout. -/
def encode (A : Fin 256 → Fin 256 → EReal) (x : Fin 256 → Fin 128 → EReal)
    (W1 : Fin 128 → Fin 256 → EReal) (b1 : Fin 256 → EReal)
    (W2 : Fin 256 → Fin 256 → EReal) (b2 : Fin 256 → EReal)
    (W3 : Fin 256 → Fin 256 → EReal) (b3 : Fin 256 → EReal)
    (Wout : Fin 256 → Fin 128 → EReal) (bout : Fin 128 → EReal) : Fin 128 → EReal :=
  readout (layer A W3 b3 (layer A W2 b2 (layer A W1 b1 x))) Wout bout

end Cert.GinSpec

end
-- ==== Proof.BatchSpec.lean ====
/-
  The whole batch: graph `b`'s 128 outputs are `GinSpec.encode` of graph `b`'s slice of the adjacency and feature
  arrays and of the shared weights and biases; the result array holds them at row `b`.
-/
import proofs.«181489_g420906795687_cont_8to1_b_386_32_alg».proof.Proof.Spec

noncomputable section

namespace Cert.GinSpec

open Idealize.ShloMosaic Idealize.ShloMosaic.ValueIdx

/-- Graph `b`'s outputs from the ten argument arrays: its adjacency is the four-axis array at (`b`, ·, ·, 0), its
    features the three-axis array at (`b`, ·, ·). -/
def graphOut (a0 : (⟨4, ![64, 256, 256, 1]⟩ : Shape).Idx → EReal) (a1 : (⟨3, ![64, 256, 128]⟩ : Shape).Idx → EReal)
    (a2 : (⟨2, ![128, 256]⟩ : Shape).Idx → EReal) (a3 : (⟨1, ![256]⟩ : Shape).Idx → EReal)
    (a4 : (⟨2, ![256, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 128]⟩ : Shape).Idx → EReal) (a9 : (⟨1, ![128]⟩ : Shape).Idx → EReal) (b : Fin 64) : Fin 128 → EReal :=
  encode (fun p q => a0 (ix4 b p q (0 : Fin 1))) (fun p d => a1 (ix3 b p d)) (fun d f => a2 (ix2 d f)) (fun f => a3 (ix1 f))
    (fun d f => a4 (ix2 d f)) (fun f => a5 (ix1 f)) (fun d f => a6 (ix2 d f)) (fun f => a7 (ix1 f))
    (fun f o => a8 (ix2 f o)) (fun o => a9 (ix1 o))

/-- The result array: row `b` holds graph `b`'s outputs. -/
def batch (a0 : (⟨4, ![64, 256, 256, 1]⟩ : Shape).Idx → EReal) (a1 : (⟨3, ![64, 256, 128]⟩ : Shape).Idx → EReal)
    (a2 : (⟨2, ![128, 256]⟩ : Shape).Idx → EReal) (a3 : (⟨1, ![256]⟩ : Shape).Idx → EReal)
    (a4 : (⟨2, ![256, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 128]⟩ : Shape).Idx → EReal) (a9 : (⟨1, ![128]⟩ : Shape).Idx → EReal) :
    (⟨2, ![64, 128]⟩ : Shape).Idx → EReal :=
  fun i => graphOut a0 a1 a2 a3 a4 a5 a6 a7 a8 a9 ⟨(i 0).val, (i 0).isLt⟩ ⟨(i 1).val, (i 1).isLt⟩

theorem batch_apply (a0 : (⟨4, ![64, 256, 256, 1]⟩ : Shape).Idx → EReal) (a1 : (⟨3, ![64, 256, 128]⟩ : Shape).Idx → EReal)
    (a2 : (⟨2, ![128, 256]⟩ : Shape).Idx → EReal) (a3 : (⟨1, ![256]⟩ : Shape).Idx → EReal)
    (a4 : (⟨2, ![256, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 128]⟩ : Shape).Idx → EReal) (a9 : (⟨1, ![128]⟩ : Shape).Idx → EReal) (b : Fin 64) (o : Fin 128) :
    batch a0 a1 a2 a3 a4 a5 a6 a7 a8 a9 (ix2 b o) = graphOut a0 a1 a2 a3 a4 a5 a6 a7 a8 a9 b o := rfl

end Cert.GinSpec

end
-- ==== Proof.RefIsSpec.lean ====
/-
  The reference program computes, graph by graph, the function of `Proof/Spec.lean`.

  Its stages are read one at a time at an index with explicit coordinates (graph `b`, node `n`, feature `f`): the
  adjacency entry is the four-axis input read through the reshape that drops its trailing unit axis; a batched or plain
  contraction is the sum over the contracted coordinate; the bias reaches every node through two broadcasts; the
  reference's factor `1.0` on a node's own features is the extended real `1`, and `1 * x = x` at every extended real;
  its pooling starts from the value `0`, and `0 + s = s`.
-/
import proofs.«181489_g420906795687_cont_8to1_b_386_32_alg».proof.Proof.Gen.ReferenceIdeal.Read
import proofs.«181489_g420906795687_cont_8to1_b_386_32_alg».proof.Proof.Spec
import proofs.«181489_g420906795687_cont_8to1_b_386_32_alg».proof.Proof.BatchSpec
import Idealize.ShloMosaic.PureOps.IdealRules

noncomputable section

namespace Cert.RefIsSpec

open Cert.ReferenceIdeal Cert.ReferenceIdeal.Read Idealize.ShloMosaic Idealize.ShloMosaic.ValueIdx

/-- The word `0x3F800000` is the extended real one. -/
theorem one_word : Ideal.ofBits .f32 0x3F800000#32 = 1 := IdealRules.sign_bit.ideal_onePat .f32

/-- Graph `b`'s adjacency, as a function of two node coordinates, read off the four-axis input. -/
abbrev adj (x0 : (⟨S64x256x256x1, .f32⟩ : BufTy).Contents (Elt Ideal)) (b : Fin 64) : Fin 256 → Fin 256 → EReal :=
  fun p q => x0 (ix4 b p q (0 : Fin 1))
/-- Graph `b`'s input features. -/
abbrev feat (x1 : (⟨S64x256x128, .f32⟩ : BufTy).Contents (Elt Ideal)) (b : Fin 64) : Fin 256 → Fin 128 → EReal :=
  fun p d => x1 (ix3 b p d)
/-- A weight matrix and a bias vector as functions of their coordinates. -/
abbrev mat {r c : Nat} (w : (⟨2, ![r, c]⟩ : Shape).Idx → EReal) : Fin r → Fin c → EReal := fun d f => w (ix2 d f)
abbrev vec {n : Nat} (v : (⟨1, ![n]⟩ : Shape).Idx → EReal) : Fin n → EReal := fun f => v (ix1 f)

/-- The reshape that drops the unit axis keeps the entry of graph `b`, row `n`, column `j`. -/
theorem adj_apply (x0 : (⟨S64x256x256x1, .f32⟩ : BufTy).Contents (Elt Ideal)) (b : Fin 64) (n j : Fin 256) :
    val_main_v0 (F := Ideal) x0 (ix3 b n j) = adj x0 b n j := by
  rw [val_main_v0_apply]
  refine congrArg x0 (funext fun a => Fin.ext ?_)
  have hb := b.isLt; have hn := n.isLt; have hj := j.isLt
  match a with
  | ⟨0, _⟩ => show ((b.val * 256 + n.val) * 256 + j.val) / 65536 = b.val; omega
  | ⟨1, _⟩ => show ((b.val * 256 + n.val) * 256 + j.val) / 256 % 256 = n.val; omega
  | ⟨2, _⟩ => show ((b.val * 256 + n.val) * 256 + j.val) / 1 % 256 = j.val; omega
  | ⟨3, _⟩ => rfl

/-- The first layer's aggregation. -/
theorem agg1_apply (x0 : (⟨S64x256x256x1, .f32⟩ : BufTy).Contents (Elt Ideal)) (x1 : (⟨S64x256x128, .f32⟩ : BufTy).Contents (Elt Ideal))
    (b : Fin 64) (n : Fin 256) (d : Fin 128) :
    val_main_v4 (F := Ideal) x0 x1 (ix3 b n d) = GinSpec.aggregate (adj x0 b) (feat x1 b) n d := by
  rw [val_main_v4_apply, val_main_v1_apply, val_main_v3_apply, val_main_v2_apply, val_main_cst_apply]
  unfold GinSpec.aggregate
  simp only [Ideal.addf_def, Ideal.mulf_def, Ideal.ofBits_def, one_word, one_mul]
  refine congrArg₂ (· + ·) (Finset.sum_congr rfl fun j _ => ?_) rfl
  rw [show lidx_main_v1 (ix3 b n d) j = ix3 b n j from funext fun a => Fin.ext (by match a with | ⟨0, _⟩ => rfl | ⟨1, _⟩ => rfl | ⟨2, _⟩ => rfl),
    show ridx_main_v1 (ix3 b n d) j = ix3 b j d from funext fun a => Fin.ext (by match a with | ⟨0, _⟩ => rfl | ⟨1, _⟩ => rfl | ⟨2, _⟩ => rfl),
    adj_apply]

/-- The first layer. -/
theorem layer1_apply (x0 : (⟨S64x256x256x1, .f32⟩ : BufTy).Contents (Elt Ideal)) (x1 : (⟨S64x256x128, .f32⟩ : BufTy).Contents (Elt Ideal))
    (x2 : (⟨S128x256, .f32⟩ : BufTy).Contents (Elt Ideal)) (x3 : (⟨S256, .f32⟩ : BufTy).Contents (Elt Ideal))
    (b : Fin 64) (n f : Fin 256) :
    val_main_v9 (F := Ideal) x0 x1 x2 x3 (ix3 b n f) = GinSpec.layer (adj x0 b) (mat x2) (vec x3) (feat x1 b) n f := by
  rw [val_main_v9_apply, val_main_v8_apply, val_main_v5_apply, val_main_v7_apply, val_main_v6_apply,
    val_main_call0_v0_apply, val_main_call0_cst_apply]
  unfold GinSpec.layer GinSpec.update
  simp only [Ideal.addf_def, Ideal.maximumf_def, Ideal.ofBits_def, Ideal.ofBits_zero_f32]
  refine congrArg₂ max (congrArg₂ (· + ·) (Finset.sum_congr rfl fun k _ => ?_) ?_) rfl
  · rw [show lidx_main_v5 (ix3 b n f) k = ix3 b n k from funext fun a => Fin.ext (by match a with | ⟨0, _⟩ => rfl | ⟨1, _⟩ => rfl | ⟨2, _⟩ => rfl),
      show ridx_main_v5 (ix3 b n f) k = ix2 k f from funext fun a => Fin.ext (by match a with | ⟨0, _⟩ => rfl | ⟨1, _⟩ => rfl),
      agg1_apply]
  · exact congrArg x3 (funext fun a => Fin.ext (by match a with | ⟨0, _⟩ => rfl))

/-! ## The second and third layers, and the readout -/

/-- The ten arguments' content types at the extended reals. -/
abbrev TG := (⟨S64x256x256x1, .f32⟩ : BufTy).Contents (Elt Ideal)
abbrev TX := (⟨S64x256x128, .f32⟩ : BufTy).Contents (Elt Ideal)
abbrev TW1 := (⟨S128x256, .f32⟩ : BufTy).Contents (Elt Ideal)
abbrev TB := (⟨S256, .f32⟩ : BufTy).Contents (Elt Ideal)
abbrev TW := (⟨S256x256, .f32⟩ : BufTy).Contents (Elt Ideal)
abbrev TWo := (⟨S256x128, .f32⟩ : BufTy).Contents (Elt Ideal)
abbrev TBo := (⟨S128, .f32⟩ : BufTy).Contents (Elt Ideal)

/-- Graph `b`'s features after the first layer, after the second, after the third. -/
abbrev h1 (x0 : TG) (x1 : TX) (x2 : TW1) (x3 : TB) (b : Fin 64) : Fin 256 → Fin 256 → EReal :=
  GinSpec.layer (adj x0 b) (mat x2) (vec x3) (feat x1 b)
abbrev h2 (x0 : TG) (x1 : TX) (x2 : TW1) (x3 : TB) (x4 : TW) (x5 : TB) (b : Fin 64) : Fin 256 → Fin 256 → EReal :=
  GinSpec.layer (adj x0 b) (mat x4) (vec x5) (h1 x0 x1 x2 x3 b)
abbrev h3 (x0 : TG) (x1 : TX) (x2 : TW1) (x3 : TB) (x4 : TW) (x5 : TB) (x6 : TW) (x7 : TB) (b : Fin 64) : Fin 256 → Fin 256 → EReal :=
  GinSpec.layer (adj x0 b) (mat x6) (vec x7) (h2 x0 x1 x2 x3 x4 x5 b)

/-- The second layer's aggregation, over the first layer's output. -/
theorem agg2_apply (x0 : TG) (x1 : TX) (x2 : TW1) (x3 : TB) (b : Fin 64) (n d : Fin 256) :
    val_main_v13 (F := Ideal) x0 x1 x2 x3 (ix3 b n d) = GinSpec.aggregate (adj x0 b) (h1 x0 x1 x2 x3 b) n d := by
  rw [val_main_v13_apply, val_main_v10_apply, val_main_v12_apply, val_main_v11_apply, val_main_cst_0_apply, layer1_apply]
  unfold GinSpec.aggregate
  simp only [Ideal.addf_def, Ideal.mulf_def, Ideal.ofBits_def, one_word, one_mul]
  refine congrArg₂ (· + ·) (Finset.sum_congr rfl fun j _ => ?_) rfl
  rw [show lidx_main_v10 (ix3 b n d) j = ix3 b n j from funext fun a => Fin.ext (by match a with | ⟨0, _⟩ => rfl | ⟨1, _⟩ => rfl | ⟨2, _⟩ => rfl),
    show ridx_main_v10 (ix3 b n d) j = ix3 b j d from funext fun a => Fin.ext (by match a with | ⟨0, _⟩ => rfl | ⟨1, _⟩ => rfl | ⟨2, _⟩ => rfl),
    adj_apply, layer1_apply]

/-- The second layer. -/
theorem layer2_apply (x0 : TG) (x1 : TX) (x2 : TW1) (x3 : TB) (x4 : TW) (x5 : TB) (b : Fin 64) (n f : Fin 256) :
    val_main_v18 (F := Ideal) x0 x1 x2 x3 x4 x5 (ix3 b n f) = h2 x0 x1 x2 x3 x4 x5 b n f := by
  rw [val_main_v18_apply, val_main_v17_apply, val_main_v14_apply, val_main_v16_apply, val_main_v15_apply,
    val_main_call1_v0_apply, val_main_call1_cst_apply]
  unfold h2 GinSpec.layer GinSpec.update
  simp only [Ideal.addf_def, Ideal.maximumf_def, Ideal.ofBits_def, Ideal.ofBits_zero_f32]
  refine congrArg₂ max (congrArg₂ (· + ·) (Finset.sum_congr rfl fun k _ => ?_) ?_) rfl
  · rw [show lidx_main_v14 (ix3 b n f) k = ix3 b n k from funext fun a => Fin.ext (by match a with | ⟨0, _⟩ => rfl | ⟨1, _⟩ => rfl | ⟨2, _⟩ => rfl),
      show ridx_main_v14 (ix3 b n f) k = ix2 k f from funext fun a => Fin.ext (by match a with | ⟨0, _⟩ => rfl | ⟨1, _⟩ => rfl),
      agg2_apply]
  · exact congrArg x5 (funext fun a => Fin.ext (by match a with | ⟨0, _⟩ => rfl))

/-- The third layer's aggregation, over the second layer's output. -/
theorem agg3_apply (x0 : TG) (x1 : TX) (x2 : TW1) (x3 : TB) (x4 : TW) (x5 : TB) (b : Fin 64) (n d : Fin 256) :
    val_main_v22 (F := Ideal) x0 x1 x2 x3 x4 x5 (ix3 b n d) = GinSpec.aggregate (adj x0 b) (h2 x0 x1 x2 x3 x4 x5 b) n d := by
  rw [val_main_v22_apply, val_main_v19_apply, val_main_v21_apply, val_main_v20_apply, val_main_cst_1_apply, layer2_apply]
  unfold GinSpec.aggregate
  simp only [Ideal.addf_def, Ideal.mulf_def, Ideal.ofBits_def, one_word, one_mul]
  refine congrArg₂ (· + ·) (Finset.sum_congr rfl fun j _ => ?_) rfl
  rw [show lidx_main_v19 (ix3 b n d) j = ix3 b n j from funext fun a => Fin.ext (by match a with | ⟨0, _⟩ => rfl | ⟨1, _⟩ => rfl | ⟨2, _⟩ => rfl),
    show ridx_main_v19 (ix3 b n d) j = ix3 b j d from funext fun a => Fin.ext (by match a with | ⟨0, _⟩ => rfl | ⟨1, _⟩ => rfl | ⟨2, _⟩ => rfl),
    adj_apply, layer2_apply]

/-- The third layer. -/
theorem layer3_apply (x0 : TG) (x1 : TX) (x2 : TW1) (x3 : TB) (x4 : TW) (x5 : TB) (x6 : TW) (x7 : TB) (b : Fin 64) (n f : Fin 256) :
    val_main_v27 (F := Ideal) x0 x1 x2 x3 x4 x5 x6 x7 (ix3 b n f) = h3 x0 x1 x2 x3 x4 x5 x6 x7 b n f := by
  rw [val_main_v27_apply, val_main_v26_apply, val_main_v23_apply, val_main_v25_apply, val_main_v24_apply,
    val_main_call2_v0_apply, val_main_call2_cst_apply]
  unfold h3 GinSpec.layer GinSpec.update
  simp only [Ideal.addf_def, Ideal.maximumf_def, Ideal.ofBits_def, Ideal.ofBits_zero_f32]
  refine congrArg₂ max (congrArg₂ (· + ·) (Finset.sum_congr rfl fun k _ => ?_) ?_) rfl
  · rw [show lidx_main_v23 (ix3 b n f) k = ix3 b n k from funext fun a => Fin.ext (by match a with | ⟨0, _⟩ => rfl | ⟨1, _⟩ => rfl | ⟨2, _⟩ => rfl),
      show ridx_main_v23 (ix3 b n f) k = ix2 k f from funext fun a => Fin.ext (by match a with | ⟨0, _⟩ => rfl | ⟨1, _⟩ => rfl),
      agg3_apply]
  · exact congrArg x7 (funext fun a => Fin.ext (by match a with | ⟨0, _⟩ => rfl))

/-- THE REFERENCE IS THE SPECIFICATION: its first result at graph `b`, output `o`, is `GinSpec.encode` of graph `b`'s
    adjacency and features and of the shared weights and biases. -/
theorem result_apply (x0 : TG) (x1 : TX) (x2 : TW1) (x3 : TB) (x4 : TW) (x5 : TB) (x6 : TW) (x7 : TB) (x8 : TWo) (x9 : TBo)
    (b : Fin 64) (o : Fin 128) :
    val_main_v32 (F := Ideal) x0 x1 x2 x3 x4 x5 x6 x7 x8 x9 (ix2 b o)
      = GinSpec.encode (adj x0 b) (feat x1 b) (mat x2) (vec x3) (mat x4) (vec x5) (mat x6) (vec x7) (mat x8) (vec x9) o := by
  rw [val_main_v32_apply, val_main_v29_apply, val_main_v31_apply, val_main_v30_apply]
  unfold GinSpec.encode GinSpec.readout
  simp only [Ideal.addf_def]
  refine congrArg₂ (· + ·) (Finset.sum_congr rfl fun f _ => ?_) ?_
  · rw [show lidx_main_v29 (ix2 b o) f = ix2 b f from funext fun a => Fin.ext (by match a with | ⟨0, _⟩ => rfl | ⟨1, _⟩ => rfl),
      show ridx_main_v29 (ix2 b o) f = ix2 f o from funext fun a => Fin.ext (by match a with | ⟨0, _⟩ => rfl | ⟨1, _⟩ => rfl),
      val_main_v28_apply, val_main_cst_2_apply]
    simp only [Ideal.ofBits_def, Ideal.ofBits_zero_f32, zero_add]
    refine congrArg (· * _) (Finset.sum_congr rfl fun n _ => ?_)
    rw [show idx_main_v28 (ix2 b f) n = ix3 b n f from funext fun a => Fin.ext (by match a with | ⟨0, _⟩ => rfl | ⟨1, _⟩ => rfl | ⟨2, _⟩ => rfl), layer3_apply]
  · exact congrArg x9 (funext fun a => Fin.ext (by match a with | ⟨0, _⟩ => rfl))

/-- As a whole array: the reference's first result is the batch specification of the ten arguments. -/
theorem ref_batch (x0 : TG) (x1 : TX) (x2 : TW1) (x3 : TB) (x4 : TW) (x5 : TB) (x6 : TW) (x7 : TB) (x8 : TWo) (x9 : TBo) :
    val_main_v32 (F := Ideal) x0 x1 x2 x3 x4 x5 x6 x7 x8 x9 = GinSpec.batch x0 x1 x2 x3 x4 x5 x6 x7 x8 x9 := by
  funext i
  obtain ⟨b, o, rfl⟩ : ∃ (b : Fin 64) (o : Fin 128), i = ix2 b o := ⟨i 0, i 1, eq_ix2 i⟩
  exact result_apply x0 x1 x2 x3 x4 x5 x6 x7 x8 x9 b o

end Cert.RefIsSpec

end
-- ==== Proof.BodyDots.lean ====
/-
  The kernel body's five contractions, each read at one entry as a plain sum over the contracted coordinate.

  Two are batched over the sixteen graphs of a block (the adjacency times the node features, at feature width 128 and
  256); three are ordinary matrix products (the block's 4096 node rows times a weight matrix, at width 128 and 256, and
  the sixteen pooled rows times the output weights). Every one accumulates into zeros, so an entry is exactly the sum of
  the operands' products.
-/
import proofs.«181489_g420906795687_cont_8to1_b_386_32_alg».proof.Proof.Gen.KernelIdeal
import Idealize.ShloMosaic.Lib.ValueIdx
import Idealize.ShloMosaic.PureOps.Ideal.Laws

noncomputable section

namespace Cert.GinBody

open Cert.KernelIdeal Cert.KernelIdeal.Gen Idealize.ShloMosaic Idealize.ShloMosaic.ValueIdx

/-! ### The adjacency times the input features (width 128), graph by graph -/
theorem adjFeat128_l0 (i : S16x256x128.Idx) (q : dot_S16x256x256_S16x256x128_S16x256x128_2_1_1_2_0_0.contr.Idx) :
    (dot_S16x256x256_S16x256x128_S16x256x128_2_1_1_2_0_0.lhsIdx i q 0).val = (i 0).val := by
  unfold DotDims.lhsIdx
  rw [dif_pos (show (0 : Fin S16x256x256.rank) ∈ dot_S16x256x256_S16x256x128_S16x256x128_2_1_1_2_0_0.lhsBatch by decide)]
  rfl
theorem adjFeat128_l1 (i : S16x256x128.Idx) (q : dot_S16x256x256_S16x256x128_S16x256x128_2_1_1_2_0_0.contr.Idx) :
    (dot_S16x256x256_S16x256x128_S16x256x128_2_1_1_2_0_0.lhsIdx i q 1).val = (i 1).val := by
  unfold DotDims.lhsIdx
  rw [dif_neg (show ¬(1 : Fin S16x256x256.rank) ∈ dot_S16x256x256_S16x256x128_S16x256x128_2_1_1_2_0_0.lhsBatch by decide), dif_pos (show (1 : Fin S16x256x256.rank) ∈ dot_S16x256x256_S16x256x128_S16x256x128_2_1_1_2_0_0.lhsNonContracting by decide)]
  rfl
theorem adjFeat128_l2 (i : S16x256x128.Idx) (q : dot_S16x256x256_S16x256x128_S16x256x128_2_1_1_2_0_0.contr.Idx) :
    (dot_S16x256x256_S16x256x128_S16x256x128_2_1_1_2_0_0.lhsIdx i q 2).val = (q ⟨0, by decide⟩).val :=
  dot_S16x256x256_S16x256x128_S16x256x128_2_1_1_2_0_0.lhsIdx_val_of_single rfl i q
theorem adjFeat128_r0 (i : S16x256x128.Idx) (q : dot_S16x256x256_S16x256x128_S16x256x128_2_1_1_2_0_0.contr.Idx) :
    (dot_S16x256x256_S16x256x128_S16x256x128_2_1_1_2_0_0.rhsIdx i q 0).val = (i 0).val := by
  unfold DotDims.rhsIdx
  rw [dif_pos (show (0 : Fin S16x256x128.rank) ∈ dot_S16x256x256_S16x256x128_S16x256x128_2_1_1_2_0_0.rhsBatch by decide)]
  rfl
theorem adjFeat128_r1 (i : S16x256x128.Idx) (q : dot_S16x256x256_S16x256x128_S16x256x128_2_1_1_2_0_0.contr.Idx) :
    (dot_S16x256x256_S16x256x128_S16x256x128_2_1_1_2_0_0.rhsIdx i q 1).val = (q ⟨0, by decide⟩).val :=
  dot_S16x256x256_S16x256x128_S16x256x128_2_1_1_2_0_0.rhsIdx_val_of_single rfl i q
theorem adjFeat128_r2 (i : S16x256x128.Idx) (q : dot_S16x256x256_S16x256x128_S16x256x128_2_1_1_2_0_0.contr.Idx) :
    (dot_S16x256x256_S16x256x128_S16x256x128_2_1_1_2_0_0.rhsIdx i q 2).val = (i 2).val := by
  unfold DotDims.rhsIdx
  rw [dif_neg (show ¬(2 : Fin S16x256x128.rank) ∈ dot_S16x256x256_S16x256x128_S16x256x128_2_1_1_2_0_0.rhsBatch by decide), dif_pos (show (2 : Fin S16x256x128.rank) ∈ dot_S16x256x256_S16x256x128_S16x256x128_2_1_1_2_0_0.rhsNonContracting by decide)]
  rfl
/-- Graph by graph: entry (node `n`, feature `d`) of graph `b` is the sum over every node `j` of the left operand at
    (`n`, `j`) times the right operand at (`j`, `d`), both of graph `b`. -/
theorem adjFeat128_apply (l : FVec Ideal S16x256x256 .f32) (r : FVec Ideal S16x256x128 .f32) (b : Fin 16) (n : Fin 256) (d : Fin 128) :
    matmul dot_S16x256x256_S16x256x128_S16x256x128_2_1_1_2_0_0 none l r (constant (F := Ideal) S16x256x128 .f32 0x00000000#32) (ix3 b n d)
      = ∑ j : Fin 256, l (ix3 b n j) * r (ix3 b j d) := by
  refine (Ideal.matmul_constant_zero_apply dot_S16x256x256_S16x256x128_S16x256x128_2_1_1_2_0_0 none l r (ix3 b n d)).trans ?_
  rw [← Equiv.sum_comp (contrEquiv1 dot_S16x256x256_S16x256x128_S16x256x128_2_1_1_2_0_0 256 rfl rfl).symm]
  refine Finset.sum_congr rfl fun k _ => ?_
  have hk := contrEquiv1_symm_val dot_S16x256x256_S16x256x128_S16x256x128_2_1_1_2_0_0 256 rfl rfl k
  have el : dot_S16x256x256_S16x256x128_S16x256x128_2_1_1_2_0_0.lhsIdx (ix3 b n d) ((contrEquiv1 dot_S16x256x256_S16x256x128_S16x256x128_2_1_1_2_0_0 256 rfl rfl).symm k) = ix3 b n k := funext fun a => Fin.ext (by
    match a with
    | ⟨0, _⟩ => exact adjFeat128_l0 _ _
    | ⟨1, _⟩ => exact adjFeat128_l1 _ _
    | ⟨2, _⟩ => exact (adjFeat128_l2 _ _).trans hk)
  have er : dot_S16x256x256_S16x256x128_S16x256x128_2_1_1_2_0_0.rhsIdx (ix3 b n d) ((contrEquiv1 dot_S16x256x256_S16x256x128_S16x256x128_2_1_1_2_0_0 256 rfl rfl).symm k) = ix3 b k d := funext fun a => Fin.ext (by
    match a with
    | ⟨0, _⟩ => exact adjFeat128_r0 _ _
    | ⟨1, _⟩ => exact (adjFeat128_r1 _ _).trans hk
    | ⟨2, _⟩ => exact adjFeat128_r2 _ _)
  rw [el, er]

/-! ### The adjacency times a layer's features (width 256), graph by graph -/
theorem adjFeat256_l0 (i : S16x256x256.Idx) (q : dot_S16x256x256_S16x256x256_S16x256x256_2_1_1_2_0_0.contr.Idx) :
    (dot_S16x256x256_S16x256x256_S16x256x256_2_1_1_2_0_0.lhsIdx i q 0).val = (i 0).val := by
  unfold DotDims.lhsIdx
  rw [dif_pos (show (0 : Fin S16x256x256.rank) ∈ dot_S16x256x256_S16x256x256_S16x256x256_2_1_1_2_0_0.lhsBatch by decide)]
  rfl
theorem adjFeat256_l1 (i : S16x256x256.Idx) (q : dot_S16x256x256_S16x256x256_S16x256x256_2_1_1_2_0_0.contr.Idx) :
    (dot_S16x256x256_S16x256x256_S16x256x256_2_1_1_2_0_0.lhsIdx i q 1).val = (i 1).val := by
  unfold DotDims.lhsIdx
  rw [dif_neg (show ¬(1 : Fin S16x256x256.rank) ∈ dot_S16x256x256_S16x256x256_S16x256x256_2_1_1_2_0_0.lhsBatch by decide), dif_pos (show (1 : Fin S16x256x256.rank) ∈ dot_S16x256x256_S16x256x256_S16x256x256_2_1_1_2_0_0.lhsNonContracting by decide)]
  rfl
theorem adjFeat256_l2 (i : S16x256x256.Idx) (q : dot_S16x256x256_S16x256x256_S16x256x256_2_1_1_2_0_0.contr.Idx) :
    (dot_S16x256x256_S16x256x256_S16x256x256_2_1_1_2_0_0.lhsIdx i q 2).val = (q ⟨0, by decide⟩).val :=
  dot_S16x256x256_S16x256x256_S16x256x256_2_1_1_2_0_0.lhsIdx_val_of_single rfl i q
theorem adjFeat256_r0 (i : S16x256x256.Idx) (q : dot_S16x256x256_S16x256x256_S16x256x256_2_1_1_2_0_0.contr.Idx) :
    (dot_S16x256x256_S16x256x256_S16x256x256_2_1_1_2_0_0.rhsIdx i q 0).val = (i 0).val := by
  unfold DotDims.rhsIdx
  rw [dif_pos (show (0 : Fin S16x256x256.rank) ∈ dot_S16x256x256_S16x256x256_S16x256x256_2_1_1_2_0_0.rhsBatch by decide)]
  rfl
theorem adjFeat256_r1 (i : S16x256x256.Idx) (q : dot_S16x256x256_S16x256x256_S16x256x256_2_1_1_2_0_0.contr.Idx) :
    (dot_S16x256x256_S16x256x256_S16x256x256_2_1_1_2_0_0.rhsIdx i q 1).val = (q ⟨0, by decide⟩).val :=
  dot_S16x256x256_S16x256x256_S16x256x256_2_1_1_2_0_0.rhsIdx_val_of_single rfl i q
theorem adjFeat256_r2 (i : S16x256x256.Idx) (q : dot_S16x256x256_S16x256x256_S16x256x256_2_1_1_2_0_0.contr.Idx) :
    (dot_S16x256x256_S16x256x256_S16x256x256_2_1_1_2_0_0.rhsIdx i q 2).val = (i 2).val := by
  unfold DotDims.rhsIdx
  rw [dif_neg (show ¬(2 : Fin S16x256x256.rank) ∈ dot_S16x256x256_S16x256x256_S16x256x256_2_1_1_2_0_0.rhsBatch by decide), dif_pos (show (2 : Fin S16x256x256.rank) ∈ dot_S16x256x256_S16x256x256_S16x256x256_2_1_1_2_0_0.rhsNonContracting by decide)]
  rfl
/-- Graph by graph: entry (node `n`, feature `d`) of graph `b` is the sum over every node `j` of the left operand at
    (`n`, `j`) times the right operand at (`j`, `d`), both of graph `b`. -/
theorem adjFeat256_apply (l : FVec Ideal S16x256x256 .f32) (r : FVec Ideal S16x256x256 .f32) (b : Fin 16) (n : Fin 256) (d : Fin 256) :
    matmul dot_S16x256x256_S16x256x256_S16x256x256_2_1_1_2_0_0 none l r (constant (F := Ideal) S16x256x256 .f32 0x00000000#32) (ix3 b n d)
      = ∑ j : Fin 256, l (ix3 b n j) * r (ix3 b j d) := by
  refine (Ideal.matmul_constant_zero_apply dot_S16x256x256_S16x256x256_S16x256x256_2_1_1_2_0_0 none l r (ix3 b n d)).trans ?_
  rw [← Equiv.sum_comp (contrEquiv1 dot_S16x256x256_S16x256x256_S16x256x256_2_1_1_2_0_0 256 rfl rfl).symm]
  refine Finset.sum_congr rfl fun k _ => ?_
  have hk := contrEquiv1_symm_val dot_S16x256x256_S16x256x256_S16x256x256_2_1_1_2_0_0 256 rfl rfl k
  have el : dot_S16x256x256_S16x256x256_S16x256x256_2_1_1_2_0_0.lhsIdx (ix3 b n d) ((contrEquiv1 dot_S16x256x256_S16x256x256_S16x256x256_2_1_1_2_0_0 256 rfl rfl).symm k) = ix3 b n k := funext fun a => Fin.ext (by
    match a with
    | ⟨0, _⟩ => exact adjFeat256_l0 _ _
    | ⟨1, _⟩ => exact adjFeat256_l1 _ _
    | ⟨2, _⟩ => exact (adjFeat256_l2 _ _).trans hk)
  have er : dot_S16x256x256_S16x256x256_S16x256x256_2_1_1_2_0_0.rhsIdx (ix3 b n d) ((contrEquiv1 dot_S16x256x256_S16x256x256_S16x256x256_2_1_1_2_0_0 256 rfl rfl).symm k) = ix3 b k d := funext fun a => Fin.ext (by
    match a with
    | ⟨0, _⟩ => exact adjFeat256_r0 _ _
    | ⟨1, _⟩ => exact (adjFeat256_r1 _ _).trans hk
    | ⟨2, _⟩ => exact adjFeat256_r2 _ _)
  rw [el, er]

/-! ### The block's 4096 node rows times the first weight matrix -/
theorem rowsW128_l0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem rowsW128_l1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
theorem rowsW128_r0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
theorem rowsW128_r1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl
/-- Entry (row `r`, column `c`) is the sum over `k` of the left operand at (`r`, `k`) times the right operand at (`k`, `c`). -/
theorem rowsW128_apply (l : FVec Ideal S4096x128 .f32) (w : FVec Ideal S128x256 .f32) (r : Fin 4096) (c : Fin 256) :
    matmul dot_S4096x128_S128x256_S4096x256_1_0_0_1_n_n none l w (constant (F := Ideal) S4096x256 .f32 0x00000000#32) (ix2 r c)
      = ∑ k : Fin 128, l (ix2 r k) * w (ix2 k c) := by
  refine (Ideal.matmul_constant_zero_apply dot_S4096x128_S128x256_S4096x256_1_0_0_1_n_n none l w (ix2 r c)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 r c) ((contrEquiv1 dot_S4096x128_S128x256_S4096x256_1_0_0_1_n_n 128 rfl rfl).symm k) = ix2 r k := funext fun a => Fin.ext (by
    match a with
    | ⟨0, _⟩ => exact rowsW128_l0 _ _
    | ⟨1, _⟩ => exact (rowsW128_l1 _ _).trans hk)
  have er : dot_S4096x128_S128x256_S4096x256_1_0_0_1_n_n.rhsIdx (ix2 r c) ((contrEquiv1 dot_S4096x128_S128x256_S4096x256_1_0_0_1_n_n 128 rfl rfl).symm k) = ix2 k c := funext fun a => Fin.ext (by
    match a with
    | ⟨0, _⟩ => exact (rowsW128_r0 _ _).trans hk
    | ⟨1, _⟩ => exact rowsW128_r1 _ _)
  rw [el, er]

/-! ### The block's 4096 node rows times a 256 by 256 weight matrix -/
theorem rowsW256_l0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem rowsW256_l1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rowsW256_r0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rowsW256_r1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
/-- Entry (row `r`, column `c`) is the sum over `k` of the left operand at (`r`, `k`) times the right operand at (`k`, `c`). -/
theorem rowsW256_apply (l : FVec Ideal S4096x256 .f32) (w : FVec Ideal S256x256 .f32) (r : Fin 4096) (c : Fin 256) :
    matmul dot_S4096x256_S256x256_S4096x256_1_0_0_1_n_n none l w (constant (F := Ideal) S4096x256 .f32 0x00000000#32) (ix2 r c)
      = ∑ k : Fin 256, l (ix2 r k) * w (ix2 k c) := by
  refine (Ideal.matmul_constant_zero_apply dot_S4096x256_S256x256_S4096x256_1_0_0_1_n_n none l w (ix2 r c)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r c) ((contrEquiv1 dot_S4096x256_S256x256_S4096x256_1_0_0_1_n_n 256 rfl rfl).symm k) = ix2 r k := funext fun a => Fin.ext (by
    match a with
    | ⟨0, _⟩ => exact rowsW256_l0 _ _
    | ⟨1, _⟩ => exact (rowsW256_l1 _ _).trans hk)
  have er : dot_S4096x256_S256x256_S4096x256_1_0_0_1_n_n.rhsIdx (ix2 r c) ((contrEquiv1 dot_S4096x256_S256x256_S4096x256_1_0_0_1_n_n 256 rfl rfl).symm k) = ix2 k c := funext fun a => Fin.ext (by
    match a with
    | ⟨0, _⟩ => exact (rowsW256_r0 _ _).trans hk
    | ⟨1, _⟩ => exact rowsW256_r1 _ _)
  rw [el, er]

/-! ### The sixteen pooled rows times the output weights -/
theorem pooledWout_l0 (i : S16x128.Idx) (q : dot_S16x256_S256x128_S16x128_1_0_0_1_n_n.contr.Idx) :
    (dot_S16x256_S256x128_S16x128_1_0_0_1_n_n.lhsIdx i q 0).val = (i 0).val := by
  unfold DotDims.lhsIdx
  rw [dif_neg (show ¬(0 : Fin S16x256.rank) ∈ dot_S16x256_S256x128_S16x128_1_0_0_1_n_n.lhsBatch by decide), dif_pos (show (0 : Fin S16x256.rank) ∈ dot_S16x256_S256x128_S16x128_1_0_0_1_n_n.lhsNonContracting by decide)]
  rfl
theorem pooledWout_l1 (i : S16x128.Idx) (q : dot_S16x256_S256x128_S16x128_1_0_0_1_n_n.contr.Idx) :
    (dot_S16x256_S256x128_S16x128_1_0_0_1_n_n.lhsIdx i q 1).val = (q ⟨0, by decide⟩).val :=
  dot_S16x256_S256x128_S16x128_1_0_0_1_n_n.lhsIdx_val_of_single rfl i q
theorem pooledWout_r0 (i : S16x128.Idx) (q : dot_S16x256_S256x128_S16x128_1_0_0_1_n_n.contr.Idx) :
    (dot_S16x256_S256x128_S16x128_1_0_0_1_n_n.rhsIdx i q 0).val = (q ⟨0, by decide⟩).val :=
  dot_S16x256_S256x128_S16x128_1_0_0_1_n_n.rhsIdx_val_of_single rfl i q
theorem pooledWout_r1 (i : S16x128.Idx) (q : dot_S16x256_S256x128_S16x128_1_0_0_1_n_n.contr.Idx) :
    (dot_S16x256_S256x128_S16x128_1_0_0_1_n_n.rhsIdx i q 1).val = (i 1).val := by
  unfold DotDims.rhsIdx
  rw [dif_neg (show ¬(1 : Fin S256x128.rank) ∈ dot_S16x256_S256x128_S16x128_1_0_0_1_n_n.rhsBatch by decide), dif_pos (show (1 : Fin S256x128.rank) ∈ dot_S16x256_S256x128_S16x128_1_0_0_1_n_n.rhsNonContracting by decide)]
  rfl
/-- Entry (row `r`, column `c`) is the sum over `k` of the left operand at (`r`, `k`) times the right operand at (`k`, `c`). -/
theorem pooledWout_apply (l : FVec Ideal S16x256 .f32) (w : FVec Ideal S256x128 .f32) (r : Fin 16) (c : Fin 128) :
    matmul dot_S16x256_S256x128_S16x128_1_0_0_1_n_n none l w (constant (F := Ideal) S16x128 .f32 0x00000000#32) (ix2 r c)
      = ∑ k : Fin 256, l (ix2 r k) * w (ix2 k c) := by
  refine (Ideal.matmul_constant_zero_apply dot_S16x256_S256x128_S16x128_1_0_0_1_n_n none l w (ix2 r c)).trans ?_
  rw [← Equiv.sum_comp (contrEquiv1 dot_S16x256_S256x128_S16x128_1_0_0_1_n_n 256 rfl rfl).symm]
  refine Finset.sum_congr rfl fun k _ => ?_
  have hk := contrEquiv1_symm_val dot_S16x256_S256x128_S16x128_1_0_0_1_n_n 256 rfl rfl k
  have el : dot_S16x256_S256x128_S16x128_1_0_0_1_n_n.lhsIdx (ix2 r c) ((contrEquiv1 dot_S16x256_S256x128_S16x128_1_0_0_1_n_n 256 rfl rfl).symm k) = ix2 r k := funext fun a => Fin.ext (by
    match a with
    | ⟨0, _⟩ => exact pooledWout_l0 _ _
    | ⟨1, _⟩ => exact (pooledWout_l1 _ _).trans hk)
  have er : dot_S16x256_S256x128_S16x128_1_0_0_1_n_n.rhsIdx (ix2 r c) ((contrEquiv1 dot_S16x256_S256x128_S16x128_1_0_0_1_n_n 256 rfl rfl).symm k) = ix2 k c := funext fun a => Fin.ext (by
    match a with
    | ⟨0, _⟩ => exact (pooledWout_r0 _ _).trans hk
    | ⟨1, _⟩ => exact pooledWout_r1 _ _)
  rw [el, er]

end Cert.GinBody

end
-- ==== Proof.BodyOps.lean ====
/-
  The kernel body on one block of sixteen graphs computes, graph by graph, the function of `Proof/Spec.lean`.

  The body sees the block's adjacency as sixteen 512 by 128 slabs: entry (`p`, `q`) of a graph's 256 by 256 adjacency
  sits in slab row `2 p + q / 128`, lane `q % 128` (both have position `256 p + q` inside the graph). It reshapes the
  slabs back to 256 by 256, and in every layer it flattens the sixteen graphs' 256 node rows into 4096 rows (graph `b`'s
  node `n` is row `256 b + n`) so that one matrix product serves all graphs; a reshape moves no entry, it only renames
  its position, so each stage read at an entry is the stage of the specification for that entry's own graph.
-/
import proofs.«181489_g420906795687_cont_8to1_b_386_32_alg».proof.Proof.BodyDots
import proofs.«181489_g420906795687_cont_8to1_b_386_32_alg».proof.Proof.Gen.KernelIdeal.Skeleton
import proofs.«181489_g420906795687_cont_8to1_b_386_32_alg».proof.Proof.Spec
import Idealize.ShloMosaic.Lib.Pipeline.Value

noncomputable section

namespace Cert.GinBody

open Cert.KernelIdeal Cert.KernelIdeal.Gen Idealize.ShloMosaic Idealize.ShloMosaic.ValueIdx

/-! ## Positions -/

/-- Graph `b`'s node `n` among the block's 4096 flattened node rows. -/
abbrev row (b : Fin 16) (n : Fin 256) : Fin 4096 := ⟨b.val * 256 + n.val, by have := b.isLt; have := n.isLt; omega⟩
/-- The slab row and the lane that hold adjacency entry (`p`, `q`). -/
abbrev slabRow (p q : Fin 256) : Fin 512 := ⟨2 * p.val + q.val / 128, by have := p.isLt; have := q.isLt; omega⟩
abbrev lane (q : Fin 256) : Fin 128 := ⟨q.val % 128, Nat.mod_lt _ (by decide)⟩

/-! ## The body's building blocks -/

/-- The block's adjacency as sixteen 256 by 256 matrices. -/
def adjView (g : FVec Ideal S16x512x128 .f32) : FVec Ideal S16x256x256 .f32 :=
  shapeCast S16x256x256 (shapeCast S16x512x128 g shapeCasts_S16x512x128_S16x512x128) shapeCasts_S16x512x128_S16x256x256

/-- Aggregation at feature width 128, flattened to 4096 rows. -/
def aggFlat128 (A : FVec Ideal S16x256x256 .f32) (h : FVec Ideal S16x256x128 .f32) : FVec Ideal S4096x128 .f32 :=
  shapeCast S4096x128 (addf (matmul dot_S16x256x256_S16x256x128_S16x256x128_2_1_1_2_0_0 none A h (constant S16x256x128 .f32 0x00000000#32)) h)
    shapeCasts_S16x256x128_S4096x128

/-- Aggregation at feature width 256, flattened to 4096 rows. -/
def aggFlat256 (A : FVec Ideal S16x256x256 .f32) (h : FVec Ideal S16x256x256 .f32) : FVec Ideal S4096x256 .f32 :=
  shapeCast S4096x256 (addf (matmul dot_S16x256x256_S16x256x256_S16x256x256_2_1_1_2_0_0 none A h (constant S16x256x256 .f32 0x00000000#32)) h)
    shapeCasts_S16x256x256_S4096x256

/-- The 4096 rows times a weight matrix. -/
def times128 (y : FVec Ideal S4096x128 .f32) (w : FVec Ideal S128x256 .f32) : FVec Ideal S4096x256 .f32 :=
  matmul dot_S4096x128_S128x256_S4096x256_1_0_0_1_n_n none y w (constant S4096x256 .f32 0x00000000#32)
def times256 (y : FVec Ideal S4096x256 .f32) (w : FVec Ideal S256x256 .f32) : FVec Ideal S4096x256 .f32 :=
  matmul dot_S4096x256_S256x256_S4096x256_1_0_0_1_n_n none y w (constant S4096x256 .f32 0x00000000#32)

/-- Add the bias row to every row, rectify, and give the rows back to their graphs. -/
def rectify (y : FVec Ideal S4096x256 .f32) (bv : FVec Ideal S1x256 .f32) : FVec Ideal S16x256x256 .f32 :=
  shapeCast S16x256x256
    (maximumf (addf y (broadcastTo S4096x256 (shapeCast S1x256 bv shapeCasts_S1x256_S1x256) broadcasts_S1x256_S4096x256))
      (broadcast S4096x256 (Scalar.ofBits .f32 0x00000000#32)))
    shapeCasts_S4096x256_S16x256x256

/-- Sum the node axis away, project, add the output bias. -/
def pooledOut (h : FVec Ideal S16x256x256 .f32) (wo : FVec Ideal S256x128 .f32) (bo : FVec Ideal S1x128 .f32) : FVec Ideal S16x128 .f32 :=
  addf (matmul dot_S16x256_S256x128_S16x128_1_0_0_1_n_n none
      (multiReduction .add [1] S16x256 h 0x00000000#32 reduces_S16x256x256_S16x256 (.inl rfl) rfl) wo (constant S16x128 .f32 0x00000000#32))
    (broadcastTo S16x128 (shapeCast S1x128 bo shapeCasts_S1x128_S1x128) broadcasts_S1x128_S16x128)

/-- The first part of the body (three aggregations and three weight products) is these blocks composed. -/
theorem pay2_eq (g : FVec Ideal S16x512x128 .f32) (x : FVec Ideal S16x256x128 .f32) (w1 : FVec Ideal S128x256 .f32)
    (b1 : FVec Ideal S1x256 .f32) (w2 : FVec Ideal S256x256 .f32) (b2 : FVec Ideal S1x256 .f32) (w3 : FVec Ideal S256x256 .f32) :
    k0_pay2 (F := Ideal) g x w1 b1 w2 b2 w3
      = times256 (aggFlat256 (adjView g) (rectify (times256 (aggFlat256 (adjView g) (rectify (times128 (aggFlat128 (adjView g) x) w1) b1)) w2) b2)) w3 := rfl

/-- The second part (the third bias and rectification, pooling, projection). -/
theorem pay1_eq (y : FVec Ideal S4096x256 .f32) (b3 : FVec Ideal S1x256 .f32) (wo : FVec Ideal S256x128 .f32) (bo : FVec Ideal S1x128 .f32) :
    k0_pay1 (F := Ideal) y b3 wo bo = pooledOut (rectify y b3) wo bo := rfl

/-! ## Reshapes and broadcasts read at an entry -/

theorem adjView_apply (g : FVec Ideal S16x512x128 .f32) (b : Fin 16) (p q : Fin 256) :
    adjView g (ix3 b p q) = g (ix3 b (slabRow p q) (lane q)) := by
  unfold adjView
  rw [shapeCast_self]
  exact shapeCast_apply g shapeCasts_S16x512x128_S16x256x256 (ix3 b p q) (ix3 b (slabRow p q) (lane q))
    (by rewrite [Shape.rowMajor_val_three, Shape.rowMajor_val_three]
        have hb := b.isLt; have hp := p.isLt; have hq := q.isLt
        show (b.val * 512 + (2 * p.val + q.val / 128)) * 128 + q.val % 128 = (b.val * 256 + p.val) * 256 + q.val
        omega)

theorem flatten128_apply (v : FVec Ideal S16x256x128 .f32) (b : Fin 16) (n : Fin 256) (d : Fin 128) :
    shapeCast S4096x128 v shapeCasts_S16x256x128_S4096x128 (ix2 (row b n) d) = v (ix3 b n d) :=
  shapeCast_apply v shapeCasts_S16x256x128_S4096x128 (ix2 (row b n) d) (ix3 b n d)
    (by rewrite [Shape.rowMajor_val_three, Shape.rowMajor_val_two]
        show (b.val * 256 + n.val) * 128 + d.val = (b.val * 256 + n.val) * 128 + d.val
        rfl)

theorem flatten256_apply (v : FVec Ideal S16x256x256 .f32) (b : Fin 16) (n : Fin 256) (d : Fin 256) :
    shapeCast S4096x256 v shapeCasts_S16x256x256_S4096x256 (ix2 (row b n) d) = v (ix3 b n d) :=
  shapeCast_apply v shapeCasts_S16x256x256_S4096x256 (ix2 (row b n) d) (ix3 b n d)
    (by rewrite [Shape.rowMajor_val_three, Shape.rowMajor_val_two]
        show (b.val * 256 + n.val) * 256 + d.val = (b.val * 256 + n.val) * 256 + d.val
        rfl)

theorem unflatten_apply (y : FVec Ideal S4096x256 .f32) (b : Fin 16) (n : Fin 256) (f : Fin 256) :
    shapeCast S16x256x256 y shapeCasts_S4096x256_S16x256x256 (ix3 b n f) = y (ix2 (row b n) f) :=
  shapeCast_apply y shapeCasts_S4096x256_S16x256x256 (ix3 b n f) (ix2 (row b n) f)
    (by rewrite [Shape.rowMajor_val_two, Shape.rowMajor_val_three]
        show (b.val * 256 + n.val) * 256 + f.val = (b.val * 256 + n.val) * 256 + f.val
        rfl)

theorem biasRow_apply (bv : FVec Ideal S1x256 .f32) (r : Fin 4096) (f : Fin 256) :
    broadcastTo S4096x256 (shapeCast S1x256 bv shapeCasts_S1x256_S1x256) broadcasts_S1x256_S4096x256 (ix2 r f) = bv (ix2 (0 : Fin 1) f) := by
  rw [shapeCast_self]
  exact broadcastTo_apply bv broadcasts_S1x256_S4096x256 (ix2 r f) (ix2 (0 : Fin 1) f) (fun a => match a with
    | ⟨0, _⟩ => by show 0 = if (1 : Nat) = 1 then 0 else _; rw [if_pos rfl]
    | ⟨1, _⟩ => by show f.val = if (256 : Nat) = 1 then 0 else f.val; rw [if_neg (by decide)])

theorem biasOut_apply (bo : FVec Ideal S1x128 .f32) (b : Fin 16) (o : Fin 128) :
    broadcastTo S16x128 (shapeCast S1x128 bo shapeCasts_S1x128_S1x128) broadcasts_S1x128_S16x128 (ix2 b o) = bo (ix2 (0 : Fin 1) o) := by
  rw [shapeCast_self]
  exact broadcastTo_apply bo broadcasts_S1x128_S16x128 (ix2 b o) (ix2 (0 : Fin 1) o) (fun a => match a with
    | ⟨0, _⟩ => by show 0 = if (1 : Nat) = 1 then 0 else _; rw [if_pos rfl]
    | ⟨1, _⟩ => by show o.val = if (128 : Nat) = 1 then 0 else o.val; rw [if_neg (by decide)])

/-- The sum over the node axis, graph `b`, feature `f`. -/
theorem pool_apply (h : FVec Ideal S16x256x256 .f32) (b : Fin 16) (f : Fin 256) :
    multiReduction .add [1] S16x256 h 0x00000000#32 reduces_S16x256x256_S16x256 (.inl rfl) rfl (ix2 b f) = ∑ n : Fin 256, h (ix3 b n f) :=
  (Ideal.multiReduction_add_single h 0x00000000#32 reduces_S16x256x256_S16x256 (.inl rfl) rfl (ix2 b f)).trans
    (Finset.sum_congr rfl fun n _ => congrArg h (funext fun a => Fin.ext (by
      match a with
      | ⟨0, _⟩ => rfl
      | ⟨1, _⟩ => rfl
      | ⟨2, _⟩ => rfl)))

end Cert.GinBody

end
-- ==== Proof.BodyValue.lean ====
/-
  The kernel body's stored value, entry by entry, is the specification applied to the entry's own graph.

  In the flattened layout graph `b`'s node `n` is row `256 b + n`; a layer on the block reads, at that row, exactly
  graph `b`'s aggregation and update, because the batched contraction never mixes graphs and the weight product acts
  on each row alone. Chaining the three layers and the pooled projection gives `GinSpec.encode` of graph `b`'s adjacency
  (read through the 512 by 128 slabs), its features, and the shared weights and bias rows.
-/
import proofs.«181489_g420906795687_cont_8to1_b_386_32_alg».proof.Proof.BodyOps

noncomputable section

namespace Cert.GinBody

open Cert.KernelIdeal Cert.KernelIdeal.Gen Idealize.ShloMosaic Idealize.ShloMosaic.ValueIdx

/-- Graph `b`'s adjacency and features inside a block, and a weight matrix and a bias row, as functions of coordinates. -/
abbrev blkAdj (A : FVec Ideal S16x256x256 .f32) (b : Fin 16) : Fin 256 → Fin 256 → EReal := fun p q => A (ix3 b p q)
abbrev blkFeat128 (h : FVec Ideal S16x256x128 .f32) (b : Fin 16) : Fin 256 → Fin 128 → EReal := fun p e => h (ix3 b p e)
abbrev blkFeat256 (h : FVec Ideal S16x256x256 .f32) (b : Fin 16) : Fin 256 → Fin 256 → EReal := fun p e => h (ix3 b p e)
abbrev mat {r c : Nat} (w : (⟨2, ![r, c]⟩ : Shape).Idx → EReal) : Fin r → Fin c → EReal := fun d f => w (ix2 d f)
abbrev biasRow {n : Nat} (v : (⟨2, ![1, n]⟩ : Shape).Idx → EReal) : Fin n → EReal := fun f => v (ix2 (0 : Fin 1) f)

/-- Aggregation read at graph `b`'s node `n`. -/
theorem aggFlat128_apply (A : FVec Ideal S16x256x256 .f32) (h : FVec Ideal S16x256x128 .f32) (b : Fin 16) (n : Fin 256) (d : Fin 128) :
    aggFlat128 A h (ix2 (row b n) d) = GinSpec.aggregate (blkAdj A b) (blkFeat128 h b) n d := by
  unfold aggFlat128
  rw [flatten128_apply, addf_apply, adjFeat128_apply]
  rfl

theorem aggFlat256_apply (A : FVec Ideal S16x256x256 .f32) (h : FVec Ideal S16x256x256 .f32) (b : Fin 16) (n : Fin 256) (d : Fin 256) :
    aggFlat256 A h (ix2 (row b n) d) = GinSpec.aggregate (blkAdj A b) (blkFeat256 h b) n d := by
  unfold aggFlat256
  rw [flatten256_apply, addf_apply, adjFeat256_apply]
  rfl

/-- Bias, rectification and the way back to the graphs, read at graph `b`'s node `n`. -/
theorem rectify_apply (y : FVec Ideal S4096x256 .f32) (bv : FVec Ideal S1x256 .f32) (b : Fin 16) (n f : Fin 256) :
    rectify y bv (ix3 b n f) = max (y (ix2 (row b n) f) + bv (ix2 (0 : Fin 1) f)) 0 := by
  unfold rectify
  rw [unflatten_apply, maximumf_apply, addf_apply, biasRow_apply, broadcast_apply]
  exact congrArg (max _) Ideal.ofBits_zero_f32

/-- One layer on the block, from features of width 128. -/
theorem layer128_apply (A : FVec Ideal S16x256x256 .f32) (x : FVec Ideal S16x256x128 .f32) (w : FVec Ideal S128x256 .f32)
    (bv : FVec Ideal S1x256 .f32) (b : Fin 16) (n f : Fin 256) :
    rectify (times128 (aggFlat128 A x) w) bv (ix3 b n f) = GinSpec.layer (blkAdj A b) (mat w) (biasRow bv) (blkFeat128 x b) n f := by
  rw [rectify_apply]
  unfold times128 GinSpec.layer GinSpec.update
  rw [rowsW128_apply]
  refine congrArg (max · 0) (congrArg (· + _) (Finset.sum_congr rfl fun d _ => ?_))
  rw [aggFlat128_apply]

/-- One layer on the block, from features of width 256. -/
theorem layer256_apply (A : FVec Ideal S16x256x256 .f32) (h : FVec Ideal S16x256x256 .f32) (w : FVec Ideal S256x256 .f32)
    (bv : FVec Ideal S1x256 .f32) (b : Fin 16) (n f : Fin 256) :
    rectify (times256 (aggFlat256 A h) w) bv (ix3 b n f) = GinSpec.layer (blkAdj A b) (mat w) (biasRow bv) (blkFeat256 h b) n f := by
  rw [rectify_apply]
  unfold times256 GinSpec.layer GinSpec.update
  rw [rowsW256_apply]
  refine congrArg (max · 0) (congrArg (· + _) (Finset.sum_congr rfl fun d _ => ?_))
  rw [aggFlat256_apply]

/-- THE BODY'S STORED VALUE at graph `b` of the block, output `o`. -/
theorem payload_apply (g : FVec Ideal S16x512x128 .f32) (x : FVec Ideal S16x256x128 .f32) (w1 : FVec Ideal S128x256 .f32)
    (b1 : FVec Ideal S1x256 .f32) (w2 : FVec Ideal S256x256 .f32) (b2 : FVec Ideal S1x256 .f32) (w3 : FVec Ideal S256x256 .f32)
    (b3 : FVec Ideal S1x256 .f32) (wo : FVec Ideal S256x128 .f32) (bo : FVec Ideal S1x128 .f32) (b : Fin 16) (o : Fin 128) :
    k0_pay1 (F := Ideal) (k0_pay2 (F := Ideal) g x w1 b1 w2 b2 w3) b3 wo bo (ix2 b o)
      = GinSpec.encode (fun p q => g (ix3 b (slabRow p q) (lane q))) (blkFeat128 x b) (mat w1) (biasRow b1) (mat w2) (biasRow b2)
          (mat w3) (biasRow b3) (mat wo) (biasRow bo) o := by
  rw [pay1_eq, pay2_eq]
  unfold pooledOut
  rw [addf_apply, pooledWout_apply, biasOut_apply]
  unfold GinSpec.encode GinSpec.readout
  refine congrArg (· + _) (Finset.sum_congr rfl fun f _ => ?_)
  rw [pool_apply]
  refine congrArg (· * _) (Finset.sum_congr rfl fun n _ => ?_)
  rw [layer256_apply]
  have eA : blkAdj (adjView g) b = fun p q => g (ix3 b (slabRow p q) (lane q)) :=
    funext fun p => funext fun q => adjView_apply g b p q
  have e1 : blkFeat256 (rectify (times128 (aggFlat128 (adjView g) x) w1) b1) b
      = GinSpec.layer (blkAdj (adjView g) b) (mat w1) (biasRow b1) (blkFeat128 x b) :=
    funext fun p => funext fun e => layer128_apply (adjView g) x w1 b1 b p e
  have e2 : blkFeat256 (rectify (times256 (aggFlat256 (adjView g) (rectify (times128 (aggFlat128 (adjView g) x) w1) b1)) w2) b2) b
      = GinSpec.layer (blkAdj (adjView g) b) (mat w2) (biasRow b2) (blkFeat256 (rectify (times128 (aggFlat128 (adjView g) x) w1) b1) b) :=
    funext fun p => funext fun e => layer256_apply (adjView g) _ w2 b2 b p e
  rw [e2, e1, eA]

end Cert.GinBody

end
-- ==== Proof.ArgBlocks.lean ====
/-
  What the body is handed at grid point `t`, in terms of the ten argument arrays.

  The grid has four points and a block holds sixteen graphs: the graph in place `bb` of point `t`'s block is graph
  `16 t + bb` of the batch. The adjacency window stages the slab view of the four-axis adjacency array (a reshape the
  host makes before the call: graph `B`'s entry (`p`, `q`) sits in slab row `2 p + q / 128`, lane `q % 128`); the feature
  window stages the feature array; each weight matrix is one block; each bias is staged as the one-row reshape the host
  makes of it. So the specification applied to a block's pieces in place `bb` is the specification of graph `16 t + bb`.
-/
import proofs.«181489_g420906795687_cont_8to1_b_386_32_alg».proof.Proof.Gen.KernelIdeal.Frame
import proofs.«181489_g420906795687_cont_8to1_b_386_32_alg».proof.Proof.BodyValue
import proofs.«181489_g420906795687_cont_8to1_b_386_32_alg».proof.Proof.BatchSpec
import Idealize.ShloMosaic.Lib.StableHlo.Run
import Idealize.ShloMosaic.Lib.Pipeline.Value

noncomputable section

namespace Cert.GinBlocks

open Cert.KernelIdeal Cert.KernelIdeal.Gen Cert.GinBody Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The printed index maps at every grid point: the adjacency, feature and output windows move with the point along
    their leading axis; every other window stays at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_10.index t (0 : Fin 2) = t.val ∧ win0_10.index t (1 : Fin 2) = 0 :=
  (by decide +kernel : ∀ t : Fin grid0.N, _)

theorem idx_const : ∀ t : Fin cfg0.N,
    win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 ∧ win0_7.index t (0 : Fin 2) = 0 ∧ win0_7.index t (1 : Fin 2) = 0
    ∧ win0_8.index t (0 : Fin 2) = 0 ∧ win0_8.index t (1 : Fin 2) = 0 ∧ win0_9.index t (0 : Fin 2) = 0 ∧ win0_9.index t (1 : Fin 2) = 0 :=
  (by decide +kernel : ∀ t : Fin grid0.N, _)

/-- The graph of the batch that sits in place `bb` of point `t`'s block. -/
abbrev graphAt (t : Fin cfg0.N) (bb : Fin 16) : Fin 64 :=
  ⟨16 * t.val + bb.val, by have ht : t.val < 4 := lt_of_lt_of_eq t.isLt N_0; have := bb.isLt; omega⟩

/-! ## The two windows that move with the point -/

theorem slabBlk_apply (c : Dev nD) (t : Fin cfg0.N) (bb : Fin 16) (r : Fin 512) (l : Fin 128) :
    (iblk m c 0 t : FVec Ideal S16x512x128 .f32) (ix3 bb r l) = (V m c main_v0 : S64x512x128.Idx → EReal) (ix3 (graphAt t bb) r l) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 16 + 1 * bb.val = 16 * t.val + bb.val; rw [e0]; omega
  | ⟨1, _⟩ => show win0_0.index t 1 * 512 + 1 * r.val = r.val; rw [e1]; omega
  | ⟨2, _⟩ => show win0_0.index t 2 * 128 + 1 * l.val = l.val; rw [e2]; omega

theorem featBlk_apply (c : Dev nD) (t : Fin cfg0.N) (bb : Fin 16) (p : Fin 256) (d : Fin 128) :
    (iblk m c 1 t : FVec Ideal S16x256x128 .f32) (ix3 bb p d) = ((m ((c : Thread nD τ).loc main_arg1)) : S64x256x128.Idx → EReal) (ix3 (graphAt t bb) p d) := by
  obtain ⟨-, -, -, e0, e1, e2, -⟩ := idx_facts t
  unfold iblk
  rw [View.read_apply]
  show V m c main_arg1 _ = _
  rw [V_main_arg1]
  congr 1
  funext a
  apply Fin.ext
  match a with
  | ⟨0, _⟩ => show win0_1.index t 0 * 16 + 1 * bb.val = 16 * t.val + bb.val; rw [e0]; omega
  | ⟨1, _⟩ => show win0_1.index t 1 * 256 + 1 * p.val = p.val; rw [e1]; omega
  | ⟨2, _⟩ => show win0_1.index t 2 * 128 + 1 * d.val = d.val; rw [e2]; omega

/-! ## The windows that hold one whole array -/

/-- The first weight matrix's window holds the array the region finds. -/
theorem w1Blk (c : Dev nD) (t : Fin cfg0.N) :
    (iblk m c 2 t : FVec Ideal S128x256 .f32) = (V m c main_arg2 : S128x256.Idx → EReal) := by
  have hc := idx_const t
  funext y
  unfold iblk
  rw [View.read_apply]
  show V m c main_arg2 _ = _
  congr 1
  funext a
  apply Fin.ext
  match a with
  | ⟨0, _⟩ => show win0_2.index t 0 * 128 + 1 * (y 0).val = (y 0).val; rw [hc.1]; omega
  | ⟨1, _⟩ => show win0_2.index t 1 * 256 + 1 * (y 1).val = (y 1).val; rw [hc.2.1]; omega

/-- The first bias row's window. -/
theorem b1Blk (c : Dev nD) (t : Fin cfg0.N) :
    (iblk m c 3 t : FVec Ideal S1x256 .f32) = (V m c main_v1 : S1x256.Idx → EReal) := by
  have hc := idx_const t
  funext y
  unfold iblk
  rw [View.read_apply]
  show V m c main_v1 _ = _
  congr 1
  funext a
  apply Fin.ext
  match a with
  | ⟨0, _⟩ => show win0_3.index t 0 * 1 + 1 * (y 0).val = (y 0).val; rw [hc.2.2.1]; omega
  | ⟨1, _⟩ => show win0_3.index t 1 * 256 + 1 * (y 1).val = (y 1).val; rw [hc.2.2.2.1]; omega

/-- The second weight matrix's window. -/
theorem w2Blk (c : Dev nD) (t : Fin cfg0.N) :
    (iblk m c 4 t : FVec Ideal S256x256 .f32) = (V m c main_arg4 : S256x256.Idx → EReal) := by
  have hc := idx_const t
  funext y
  unfold iblk
  rw [View.read_apply]
  show V m c main_arg4 _ = _
  congr 1
  funext a
  apply Fin.ext
  match a with
  | ⟨0, _⟩ => show win0_4.index t 0 * 256 + 1 * (y 0).val = (y 0).val; rw [hc.2.2.2.2.1]; omega
  | ⟨1, _⟩ => show win0_4.index t 1 * 256 + 1 * (y 1).val = (y 1).val; rw [hc.2.2.2.2.2.1]; omega

/-- The second bias row's window. -/
theorem b2Blk (c : Dev nD) (t : Fin cfg0.N) :
    (iblk m c 5 t : FVec Ideal S1x256 .f32) = (V m c main_v2 : S1x256.Idx → EReal) := by
  have hc := idx_const t
  funext y
  unfold iblk
  rw [View.read_apply]
  show V m c main_v2 _ = _
  congr 1
  funext a
  apply Fin.ext
  match a with
  | ⟨0, _⟩ => show win0_5.index t 0 * 1 + 1 * (y 0).val = (y 0).val; rw [hc.2.2.2.2.2.2.1]; omega
  | ⟨1, _⟩ => show win0_5.index t 1 * 256 + 1 * (y 1).val = (y 1).val; rw [hc.2.2.2.2.2.2.2.1]; omega

/-- The third weight matrix's window. -/
theorem w3Blk (c : Dev nD) (t : Fin cfg0.N) :
    (iblk m c 6 t : FVec Ideal S256x256 .f32) = (V m c main_arg6 : S256x256.Idx → EReal) := by
  have hc := idx_const t
  funext y
  unfold iblk
  rw [View.read_apply]
  show V m c main_arg6 _ = _
  congr 1
  funext a
  apply Fin.ext
  match a with
  | ⟨0, _⟩ => show win0_6.index t 0 * 256 + 1 * (y 0).val = (y 0).val; rw [hc.2.2.2.2.2.2.2.2.1]; omega
  | ⟨1, _⟩ => show win0_6.index t 1 * 256 + 1 * (y 1).val = (y 1).val; rw [hc.2.2.2.2.2.2.2.2.2.1]; omega

/-- The third bias row's window. -/
theorem b3Blk (c : Dev nD) (t : Fin cfg0.N) :
    (iblk m c 7 t : FVec Ideal S1x256 .f32) = (V m c main_v3 : S1x256.Idx → EReal) := by
  have hc := idx_const t
  funext y
  unfold iblk
  rw [View.read_apply]
  show V m c main_v3 _ = _
  congr 1
  funext a
  apply Fin.ext
  match a with
  | ⟨0, _⟩ => show win0_7.index t 0 * 1 + 1 * (y 0).val = (y 0).val; rw [hc.2.2.2.2.2.2.2.2.2.2.1]; omega
  | ⟨1, _⟩ => show win0_7.index t 1 * 256 + 1 * (y 1).val = (y 1).val; rw [hc.2.2.2.2.2.2.2.2.2.2.2.1]; omega

/-- The output weights' window. -/
theorem woBlk (c : Dev nD) (t : Fin cfg0.N) :
    (iblk m c 8 t : FVec Ideal S256x128 .f32) = (V m c main_arg8 : S256x128.Idx → EReal) := by
  have hc := idx_const t
  funext y
  unfold iblk
  rw [View.read_apply]
  show V m c main_arg8 _ = _
  congr 1
  funext a
  apply Fin.ext
  match a with
  | ⟨0, _⟩ => show win0_8.index t 0 * 256 + 1 * (y 0).val = (y 0).val; rw [hc.2.2.2.2.2.2.2.2.2.2.2.2.1]; omega
  | ⟨1, _⟩ => show win0_8.index t 1 * 128 + 1 * (y 1).val = (y 1).val; rw [hc.2.2.2.2.2.2.2.2.2.2.2.2.2.1]; omega

/-- The output bias row's window. -/
theorem boBlk (c : Dev nD) (t : Fin cfg0.N) :
    (iblk m c 9 t : FVec Ideal S1x128 .f32) = (V m c main_v4 : S1x128.Idx → EReal) := by
  have hc := idx_const t
  funext y
  unfold iblk
  rw [View.read_apply]
  show V m c main_v4 _ = _
  congr 1
  funext a
  apply Fin.ext
  match a with
  | ⟨0, _⟩ => show win0_9.index t 0 * 1 + 1 * (y 0).val = (y 0).val; rw [hc.2.2.2.2.2.2.2.2.2.2.2.2.2.2.1]; omega
  | ⟨1, _⟩ => show win0_9.index t 1 * 128 + 1 * (y 1).val = (y 1).val; rw [hc.2.2.2.2.2.2.2.2.2.2.2.2.2.2.2]; omega

/-! ## What the host wrote before the call -/

/-- The slab view: the four-axis adjacency array reshaped to 64 graphs of 512 rows of 128 lanes. -/
theorem V_slabs (c : Dev nD) :
    (V m c main_v0 : S64x512x128.Idx → EReal) = shapeCast S64x512x128 (m ((c : Thread nD τ).loc main_arg0)) shapeCasts_S64x256x256x1_S64x512x128 := by
  show StableHlo.after hostOps0 (fun b => m (c, b)) (Proc.devRef .tc main_v0) = _
  after_results
  rfl
/-- Each bias as one row. -/
theorem V_bias1 (c : Dev nD) : (V m c main_v1 : S1x256.Idx → EReal) = shapeCast S1x256 (m ((c : Thread nD τ).loc main_arg3)) shapeCasts_S256_S1x256 := by
  show StableHlo.after hostOps0 (fun b => m (c, b)) (Proc.devRef .tc main_v1) = _
  after_results
  rfl
theorem V_bias2 (c : Dev nD) : (V m c main_v2 : S1x256.Idx → EReal) = shapeCast S1x256 (m ((c : Thread nD τ).loc main_arg5)) shapeCasts_S256_S1x256 := by
  show StableHlo.after hostOps0 (fun b => m (c, b)) (Proc.devRef .tc main_v2) = _
  after_results
  rfl
theorem V_bias3 (c : Dev nD) : (V m c main_v3 : S1x256.Idx → EReal) = shapeCast S1x256 (m ((c : Thread nD τ).loc main_arg7)) shapeCasts_S256_S1x256 := by
  show StableHlo.after hostOps0 (fun b => m (c, b)) (Proc.devRef .tc main_v3) = _
  after_results
  rfl
theorem V_biasOut (c : Dev nD) : (V m c main_v4 : S1x128.Idx → EReal) = shapeCast S1x128 (m ((c : Thread nD τ).loc main_arg9)) shapeCasts_S128_S1x128 := by
  show StableHlo.after hostOps0 (fun b => m (c, b)) (Proc.devRef .tc main_v4) = _
  after_results
  rfl

/-- Graph `B`'s adjacency entry (`p`, `q`) in the slab view: both have position `65536 B + 256 p + q`. -/
theorem slabs_apply (a0 : S64x256x256x1.Idx → EReal) (B : Fin 64) (p q : Fin 256) :
    shapeCast S64x512x128 a0 shapeCasts_S64x256x256x1_S64x512x128 (ix3 B (slabRow p q) (lane q)) = a0 (ix4 B p q (0 : Fin 1)) :=
  shapeCast_apply a0 shapeCasts_S64x256x256x1_S64x512x128 (ix3 B (slabRow p q) (lane q)) (ix4 B p q (0 : Fin 1))
    (by rewrite [Shape.rowMajor_val_four, Shape.rowMajor_val_three]
        have hB := B.isLt; have hp := p.isLt; have hq := q.isLt
        show ((B.val * 256 + p.val) * 256 + q.val) * 1 + 0 = (B.val * 512 + (2 * p.val + q.val / 128)) * 128 + q.val % 128
        omega)

/-- A bias read through its one-row reshape. -/
theorem row256_apply (a : S256.Idx → EReal) (f : Fin 256) :
    shapeCast S1x256 a shapeCasts_S256_S1x256 (ix2 (0 : Fin 1) f) = a (ix1 f) :=
  shapeCast_apply a shapeCasts_S256_S1x256 (ix2 (0 : Fin 1) f) (ix1 f)
    (by rewrite [Shape.rowMajor_val_one, Shape.rowMajor_val_two]; show f.val = 0 * 256 + f.val; omega)
theorem row128_apply (a : S128.Idx → EReal) (o : Fin 128) :
    shapeCast S1x128 a shapeCasts_S128_S1x128 (ix2 (0 : Fin 1) o) = a (ix1 o) :=
  shapeCast_apply a shapeCasts_S128_S1x128 (ix2 (0 : Fin 1) o) (ix1 o)
    (by rewrite [Shape.rowMajor_val_one, Shape.rowMajor_val_two]; show o.val = 0 * 128 + o.val; omega)

/-! ## A block's pieces are a graph's -/

/-- The specification over what the body is handed at point `t`, in place `bb`, is the specification of graph
    `16 t + bb` of the batch. -/
theorem block_encode (c : Dev nD) (t : Fin cfg0.N) (bb : Fin 16) (o : Fin 128) :
    GinSpec.encode (fun p q => (iblk m c 0 t : FVec Ideal S16x512x128 .f32) (ix3 bb (slabRow p q) (lane q)))
        (blkFeat128 (iblk m c 1 t : FVec Ideal S16x256x128 .f32) bb)
        (mat (iblk m c 2 t : FVec Ideal S128x256 .f32)) (biasRow (iblk m c 3 t : FVec Ideal S1x256 .f32))
        (mat (iblk m c 4 t : FVec Ideal S256x256 .f32)) (biasRow (iblk m c 5 t : FVec Ideal S1x256 .f32))
        (mat (iblk m c 6 t : FVec Ideal S256x256 .f32)) (biasRow (iblk m c 7 t : FVec Ideal S1x256 .f32))
        (mat (iblk m c 8 t : FVec Ideal S256x128 .f32)) (biasRow (iblk m c 9 t : FVec Ideal S1x128 .f32)) o
      = GinSpec.graphOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (graphAt t bb) o := by
  have hA : (fun p q => (iblk m c 0 t : FVec Ideal S16x512x128 .f32) (ix3 bb (slabRow p q) (lane q)))
      = fun p q => ((m ((c : Thread nD τ).loc main_arg0)) : S64x256x256x1.Idx → EReal) (ix4 (graphAt t bb) p q (0 : Fin 1)) :=
    funext fun p => funext fun q => by rw [slabBlk_apply, V_slabs, slabs_apply]
  have hX : blkFeat128 (iblk m c 1 t : FVec Ideal S16x256x128 .f32) bb
      = fun p d => ((m ((c : Thread nD τ).loc main_arg1)) : S64x256x128.Idx → EReal) (ix3 (graphAt t bb) p d) :=
    funext fun p => funext fun d => featBlk_apply m c t bb p d
  have h1 : biasRow (iblk m c 3 t : FVec Ideal S1x256 .f32) = fun f => ((m ((c : Thread nD τ).loc main_arg3)) : S256.Idx → EReal) (ix1 f) :=
    funext fun f => by show (iblk m c 3 t : FVec Ideal S1x256 .f32) (ix2 (0 : Fin 1) f) = _; rw [b1Blk, V_bias1, row256_apply]
  have h2 : biasRow (iblk m c 5 t : FVec Ideal S1x256 .f32) = fun f => ((m ((c : Thread nD τ).loc main_arg5)) : S256.Idx → EReal) (ix1 f) :=
    funext fun f => by show (iblk m c 5 t : FVec Ideal S1x256 .f32) (ix2 (0 : Fin 1) f) = _; rw [b2Blk, V_bias2, row256_apply]
  have h3 : biasRow (iblk m c 7 t : FVec Ideal S1x256 .f32) = fun f => ((m ((c : Thread nD τ).loc main_arg7)) : S256.Idx → EReal) (ix1 f) :=
    funext fun f => by show (iblk m c 7 t : FVec Ideal S1x256 .f32) (ix2 (0 : Fin 1) f) = _; rw [b3Blk, V_bias3, row256_apply]
  have ho : biasRow (iblk m c 9 t : FVec Ideal S1x128 .f32) = fun f => ((m ((c : Thread nD τ).loc main_arg9)) : S128.Idx → EReal) (ix1 f) :=
    funext fun f => by show (iblk m c 9 t : FVec Ideal S1x128 .f32) (ix2 (0 : Fin 1) f) = _; rw [boBlk, V_biasOut, row128_apply]
  unfold GinSpec.graphOut
  rw [hA, hX, h1, h2, h3, ho, w1Blk, w2Blk, w3Blk, woBlk, V_main_arg2, V_main_arg4, V_main_arg6, V_main_arg8]

end Cert.GinBlocks

end
-- ==== Proof.KernelRun.lean ====
/-
  The idealized kernel's run, read: its first result array ends holding the batch specification of the ten argument
  arrays, its second result the constant zero, and the arguments end as they began.

  Point `t` of the grid stores, in place `bb` of the output window's block, graph `16 t + bb`'s 128 outputs; that block
  is rows `16 t … 16 t + 15` of the 64 by 128 result array, so what the point writes back is exactly those rows of the
  batch specification. Row `r` lies in point `r / 16`'s block, so the four blocks cover the array and it ends holding
  the specification everywhere. The one host line after the call writes the constant and reads nothing.
-/
import proofs.«181489_g420906795687_cont_8to1_b_386_32_alg».proof.Proof.ArgBlocks

noncomputable section

namespace Cert.GinBlocks

open Cert.KernelIdeal Cert.KernelIdeal.Gen Cert.GinBody Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The result array the kernel must end holding: the batch specification of the arguments as launched. -/
abbrev resultArr (c : Dev nD) : S64x128.Idx → EReal :=
  GinSpec.batch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Rows `16 t … 16 t + 15` of a 64 by 128 array, as a 16 by 128 block. -/
abbrev rowsOf (t : Fin cfg0.N) (G : S64x128.Idx → EReal) : S16x128.Idx → EReal :=
  fun j => G (ix2 (graphAt t ⟨(j 0).val, (j 0).isLt⟩) ⟨(j 1).val, (j 1).isLt⟩)

/-- What the body stores at point `t` is those rows of the batch specification. -/
theorem stored_eq (c : Dev nD) (t : Fin cfg0.N) :
    (k0_pay1 (F := Ideal) (k0_pay2 (F := Ideal) (iblk m c 0 t : FVec Ideal S16x512x128 .f32) (iblk m c 1 t : FVec Ideal S16x256x128 .f32) (iblk m c 2 t : FVec Ideal S128x256 .f32) (iblk m c 3 t : FVec Ideal S1x256 .f32) (iblk m c 4 t : FVec Ideal S256x256 .f32) (iblk m c 5 t : FVec Ideal S1x256 .f32) (iblk m c 6 t : FVec Ideal S256x256 .f32)) (iblk m c 7 t : FVec Ideal S1x256 .f32) (iblk m c 8 t : FVec Ideal S256x128 .f32) (iblk m c 9 t : FVec Ideal S1x128 .f32) : FVec Ideal S16x128 .f32)
      = rowsOf t (resultArr m c) := by
  funext j
  obtain ⟨bb, o, rfl⟩ : ∃ (bb : Fin 16) (o : Fin 128), j = ix2 bb o := ⟨j 0, j 1, eq_ix2 j⟩
  refine (payload_apply (iblk m c 0 t : FVec Ideal S16x512x128 .f32) (iblk m c 1 t : FVec Ideal S16x256x128 .f32) (iblk m c 2 t : FVec Ideal S128x256 .f32) (iblk m c 3 t : FVec Ideal S1x256 .f32) (iblk m c 4 t : FVec Ideal S256x256 .f32) (iblk m c 5 t : FVec Ideal S1x256 .f32) (iblk m c 6 t : FVec Ideal S256x256 .f32) (iblk m c 7 t : FVec Ideal S1x256 .f32) (iblk m c 8 t : FVec Ideal S256x128 .f32) (iblk m c 9 t : FVec Ideal S1x128 .f32) bb o).trans ?_
  exact block_encode m c t bb o

/-- The output window's block at point `t`, read off any 64 by 128 array, is those rows. -/
theorem blkread_eq (t : Fin cfg0.N) (G : S64x128.Idx → EReal) :
    (((cfg0.win 10).blk t).view.read (Elt Ideal) G : S16x128.Idx → EReal) = rowsOf t G := by
  obtain ⟨-, -, -, -, -, -, e0, e1⟩ := idx_facts t
  funext j
  rw [View.read_apply]
  refine congrArg G (funext fun a => Fin.ext ?_)
  match a with
  | ⟨0, _⟩ => show win0_10.index t 0 * 16 + 1 * (j 0).val = 16 * t.val + (j 0).val; rw [e0]; omega
  | ⟨1, _⟩ => show win0_10.index t 1 * 128 + 1 * (j 1).val = (j 1).val; rw [e1]; omega

/-- WHAT POINT `t` WRITES BACK is block `t` of the batch specification. -/
theorem flushed_eq (c : Dev nD) (t : Fin cfg0.N) :
    (dats m 0 c).flushed 10 t = ((cfg0.win 10).blk t).view.read (Elt Ideal) (resultArr m c) := by
  show (cfg0.win 10).cut (grid0.coords t) ((dats m 0 c).after 10 t) = _
  rw [after0_10]
  unfold out0_10
  rw [View.canon_unit_zero hz2]
  simp only [View.ld_unit_zero (S := S16x512x128) hz3, View.ld_unit_zero (S := S16x256x128) hz3, View.ld_unit_zero (S := S128x256) hz2,
    View.ld_unit_zero (S := S1x256) hz2, View.ld_unit_zero (S := S256x256) hz2, View.ld_unit_zero (S := S256x128) hz2,
    View.ld_unit_zero (S := S1x128) hz2]
  exact (stored_eq m c t).trans (blkread_eq t (resultArr m c)).symm

/-- An index of the result array is in point `t`'s block iff each coordinate is in the block's range on its axis. -/
theorem mem_blk (t : Fin cfg0.N) (i : S64x128.Idx) :
    i ∈ ((cfg0.win 10).blk t).view.set ↔ ∀ a : Fin 2, win0_10.index t a * S16x128.size a ≤ (i a).val ∧ (i a).val < win0_10.index t a * S16x128.size a + S16x128.size a := by
  show i ∈ ((View.whole main_v5).slice (win0_10.rect t)).set ↔ _
  rw [View.set_slice_whole, Rect.mem_set_unit]
  exact Iff.rfl

/-- Row `r` of the result array is in the block of point `r / 16`. -/
theorem cover (i : S64x128.Idx) : ∃ t : Fin cfg0.N, (cfg0.win 10).flush t = true ∧ i ∈ ((cfg0.win 10).blk t).view.set := by
  have hi0 : (i 0).val < 64 := (i 0).isLt
  have hi1 : (i 1).val < 128 := (i 1).isLt
  have hN : cfg0.N = 4 := N_0
  let t : Fin cfg0.N := ⟨(i 0).val / 16, by rw [hN]; omega⟩
  obtain ⟨-, -, -, -, -, -, e0, e1⟩ := idx_facts t
  refine ⟨t, flush0_10 t, (mem_blk t i).mpr fun a => ?_⟩
  match a with
  | ⟨0, _⟩ =>
    show win0_10.index t 0 * 16 ≤ (i 0).val ∧ (i 0).val < win0_10.index t 0 * 16 + 16
    rw [e0]; show (i 0).val / 16 * 16 ≤ (i 0).val ∧ (i 0).val < (i 0).val / 16 * 16 + 16; omega
  | ⟨1, _⟩ =>
    show win0_10.index t 1 * 128 ≤ (i 1).val ∧ (i 1).val < win0_10.index t 1 * 128 + 128
    rw [e1]; omega

/-- THE RESULT ARRAY after the run: the batch specification of the argument arrays. -/
theorem final (c : Dev nD) : (dats m 0 c).arrAt 10 cfg0.N = resultArr m c :=
  (dats m 0 c).arrAt_eq_of_cover 10 (resultArr m c) (fun t _ => flushed_eq m c t) cover

/-- The host line after the call writes the constant zero into the second result. -/
theorem tail_cst (c : Dev nD) :
    Pipeline.afterTail₀ cfgs (dats m) 0 (V0 m) [hostOps1] c main_cst = constant (F := Ideal) S_ .f32 0x00000000#32 := by
  unfold Pipeline.afterTail₀
  show StableHlo.after hostOps1 _ (Proc.devRef .tc main_cst) = _
  after_results

/-- THE RUN, READ: both results named, the ten arguments unchanged. -/
theorem run : θ_run defs (onTc (τ := τ) (main (F := Ideal))) ⟨m, fun _ => 0, ρ⟩ (fun r => ∀ c : Dev nD,
      r.2.mem ((c.tc : Thread nD τ).loc main_v5) = resultArr m c
      ∧ r.2.mem ((c.tc : Thread nD τ).loc main_cst) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 10).trans (final m c),
      ((h c).2 main_cst (Pipeline.mem_restRefs_of main_cst (by decide) (by decide))).trans (tail_cst m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c))⟩) (run_main m ρ)

end Cert.GinBlocks

end
-- ==== Proof.lean ====
/-
  A graph-isomorphism-network encoder over a batch of 64 graphs of 256 nodes, as one fused kernel, against its plain
  array-language reference: the two compute the same function over the extended reals.

  For each graph: three layers, each of which replaces every node's features by the adjacency-weighted sum of all
  nodes' features plus the node's own, multiplies by a weight matrix, adds a bias and rectifies; then the node axis is
  summed away and one last affine map gives the graph's 128 outputs. A second result is the constant zero.

  The kernel walks the batch in four blocks of sixteen graphs. It is handed the adjacency as 512 by 128 slabs (the host
  reshapes the four-axis array so; a reshape moves no entry) and reshapes each graph's slabs back to 256 by 256; it
  flattens the sixteen graphs' node rows into 4096 rows so that one matrix product per layer serves them all. The
  reference contracts graph by graph and multiplies a node's own features by the literal `1.0`. None of this changes a
  value: a contraction is a sum over the contracted coordinate however its rows are grouped, and `1 * x = x` at every
  extended real, so no finiteness of the inputs is used. `Proof/Spec.lean` states the per-graph function;
  `Proof/RefIsSpec.lean` reads the reference's stages to it; `Proof/BodyDots.lean`, `BodyOps.lean` and `BodyValue.lean`
  read the kernel body's stored value to it; `Proof/ArgBlocks.lean` and `KernelRun.lean` carry the blocks to the
  whole result array and read the kernel's run.
-/
import proofs.«181489_g420906795687_cont_8to1_b_386_32_alg».proof.Defs
import proofs.«181489_g420906795687_cont_8to1_b_386_32_alg».proof.Proof.Gen.Kernel
import proofs.«181489_g420906795687_cont_8to1_b_386_32_alg».proof.Proof.Gen.Kernel.Skeleton
import proofs.«181489_g420906795687_cont_8to1_b_386_32_alg».proof.Proof.Gen.Kernel.Launch
import proofs.«181489_g420906795687_cont_8to1_b_386_32_alg».proof.Proof.Gen.Kernel.Points
import proofs.«181489_g420906795687_cont_8to1_b_386_32_alg».proof.Proof.Gen.Kernel.Frame
import proofs.«181489_g420906795687_cont_8to1_b_386_32_alg».proof.Proof.Gen.KernelIdeal
import proofs.«181489_g420906795687_cont_8to1_b_386_32_alg».proof.Proof.Gen.KernelIdeal.Skeleton
import proofs.«181489_g420906795687_cont_8to1_b_386_32_alg».proof.Proof.Gen.KernelIdeal.Launch
import proofs.«181489_g420906795687_cont_8to1_b_386_32_alg».proof.Proof.Gen.KernelIdeal.Points
import proofs.«181489_g420906795687_cont_8to1_b_386_32_alg».proof.Proof.Gen.KernelIdeal.Frame
import proofs.«181489_g420906795687_cont_8to1_b_386_32_alg».proof.Proof.Gen.ReferenceIdeal
import proofs.«181489_g420906795687_cont_8to1_b_386_32_alg».proof.Proof.Gen.Pre_finite_inputs
import proofs.«181489_g420906795687_cont_8to1_b_386_32_alg».proof.Proof.Gen.ReferenceIdeal.Run
import proofs.«181489_g420906795687_cont_8to1_b_386_32_alg».proof.Proof.Gen.ReferenceIdeal.Read
import proofs.«181489_g420906795687_cont_8to1_b_386_32_alg».proof.Proof.RefIsSpec
import proofs.«181489_g420906795687_cont_8to1_b_386_32_alg».proof.Proof.KernelRun
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run names both results and keeps the arguments; the
    frame is that run with the results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel, so there is nothing to restate. -/
theorem preserves : Cert.preserves_Kernel_KernelIdeal := trivial

/-- From memories that agree on the ten arguments both programs end with the first result at the batch specification
    of those arguments — the kernel by its blocks, the reference by its stages — and the second at the constant zero. -/
theorem algebraic : Cert.algebraic_KernelIdeal_ReferenceIdeal := by
  intro m ρ m' ρ' _ hagree
  refine ⟨fun c => Cert.GinBlocks.resultArr m c,
    fun _ => constant (F := Ideal) Cert.KernelIdeal.S_ .f32 0x00000000#32, Cert.GinBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.RefIsSpec.ref_batch]
  obtain ⟨e0, e1, e2, e3, e4, e5, e6, e7, e8, e9⟩ := hagree c
  rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
